-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2048x4096 .f32) (main_arg1 : IVec S4096x1376 32) (main_arg2 : IVec S32x1376 32) (main_arg3 : FVec F S32x11008 .f32) (main_arg4 : FVec F S11008 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S2048x11008 : Shape := ⟨2, ![2048, 11008]⟩
abbrev S512x256 : Shape := ⟨2, ![512, 256]⟩
abbrev S256x256 : Shape := ⟨2, ![256, 256]⟩
abbrev S32x2048 : Shape := ⟨2, ![32, 2048]⟩
abbrev S1x2048 : Shape := ⟨2, ![1, 2048]⟩
abbrev S512x2048 : Shape := ⟨2, ![512, 2048]⟩
abbrev S256x256x1 : Shape := ⟨3, ![256, 256, 1]⟩
abbrev S256x256x8 : Shape := ⟨3, ![256, 256, 8]⟩
abbrev S256x2048 : Shape := ⟨2, ![256, 2048]⟩
abbrev S2048 : Shape := ⟨1, ![2048]⟩

abbrev nBuf : Space → Nat
  | .hbm => 23
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x1376x1, .i32⟩
  | .hbm, ⟨10, _⟩ => ⟨S1x1x8, .i32⟩
  | .hbm, ⟨11, _⟩ => ⟨S32x1376x8, .i32⟩
  | .hbm, ⟨12, _⟩ => ⟨S32x1376x8, .i32⟩
  | .hbm, ⟨13, _⟩ => ⟨S32x1376x8, .i32⟩
  | .hbm, ⟨14, _⟩ => ⟨S_, .i32⟩
  | .hbm, ⟨15, _⟩ => ⟨S32x1376x8, .i32⟩
  | .hbm, ⟨16, _⟩ => ⟨S32x1376x8, .i32⟩
  | .hbm, ⟨17, _⟩ => ⟨S32x11008, .i32⟩
  | .hbm, ⟨18, _⟩ => ⟨S32x11008, .f32⟩
  | .hbm, ⟨19, _⟩ => ⟨S32x11008, .f32⟩
  | .hbm, ⟨20, _⟩ => ⟨S2048x4096, .bf16⟩
  | .hbm, ⟨21, _⟩ => ⟨S1x11008, .f32⟩
  | .hbm, ⟨22, _⟩ => ⟨S2048x11008, .f32⟩
  | .local _ .vmem, ⟨0, _⟩ => ⟨S512x256, .bf16⟩
  | .local _ .vmem, ⟨1, _⟩ => ⟨S512x256, .bf16⟩
  | .local _ .vmem, ⟨2, _⟩ => ⟨S256x256, .i32⟩
  | .local _ .vmem, ⟨3, _⟩ => ⟨S256x256, .i32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 16], ![false, false, false]⟩

def k0_cond2 (i : grid0.Coords) : BitVec 1 :=
  let arg2 : BitVec 32 := BitVec.ofNat 32 (i 2).val
  let c15_i32_20 : BitVec 32 := 15#32
  let v65 : BitVec 1 := Scalar.cmpi .eq arg2 c15_i32_20
  let v66 : BitVec 32 := Scalar.extui v65
  let c0_i32_21 : BitVec 32 := 0#32
  let v67 : BitVec 1 := Scalar.cmpi .ne v66 c0_i32_21
  v67

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bitsLt_bf16_f32 : FTy.bits .bf16 < FTy.bits .f32
  shapeCasts_S11008_S1x11008 : S11008.ShapeCasts S1x11008
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x256_S256x256_0_0 : ∀ a, (![0, 0] : Fin 2 → Nat) a + S256x256.size a ≤ S256x256.size a
  h_S256x256 : 0 < S256x256.numel
  iota_S1x1x8_d2_w32 : S1x1x8.Iotas .tc 32 [2]
  shapeCasts_S256x256_S256x256x1 : S256x256.ShapeCasts S256x256x1
  broadcasts_S256x256x1_S256x256x8 : S256x256x1.Broadcasts S256x256x8
  broadcasts_S1x1x8_S256x256x8 : S1x1x8.Broadcasts S256x256x8
  shapeCasts_S256x256x8_S256x2048 : S256x256x8.ShapeCasts S256x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  iota_S32x2048_d0_w32 : S32x2048.Iotas .tc 32 [0]
  reduces_S32x2048_S2048 : S32x2048.Reduces [0] S2048
  shapeCasts_S2048_S1x2048 : S2048.ShapeCasts S1x2048
  iota_S256x2048_d0_w32 : S256x2048.Iotas .tc 32 [0]
  shapeCasts_S1x2048_S1x2048 : S1x2048.ShapeCasts S1x2048
  broadcasts_S1x2048_S256x2048 : S1x2048.Broadcasts S256x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x4096.size a
  hwx0_0 : ∀ i : grid0.Coords, EltTy.bits .bf16 = 32 ∨ (Rect.block (s := S2048x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x256.size a < S4096x1376.size a
  hwx0_1 : ∀ i : grid0.Coords, EltTy.bits .i32 = 32 ∨ (Rect.unit (s := S4096x1376) (fun a => cc0_transform_1 i a * S256x256.size a) (fun a => (Pipeline.Clip.of (cc0_transform_1 i a) (S256x256.size a) (S4096x1376.size a)).extent (S256x256.size a)) fun a => Pipeline.Clip.inb (Pipeline.Clip.ok_of (hstart0_1 i a))).WholeWords (EltTy.packing .i32)
  hwxs0_1 : ∀ i : grid0.Coords, EltTy.bits .i32 = 32 ∨ (Rect.unit (s := S256x256) (fun _ => 0) (fun a => (Pipeline.Clip.of (cc0_transform_1 i a) (S256x256.size a) (S4096x1376.size a)).extent (S256x256.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x2048.size a < S32x11008.size a
  hwx0_2 : ∀ i : grid0.Coords, EltTy.bits .f32 = 32 ∨ (Rect.unit (s := S32x11008) (fun a => cc0_transform_2 i a * S32x2048.size a) (fun a => (Pipeline.Clip.of (cc0_transform_2 i a) (S32x2048.size a) (S32x11008.size a)).extent (S32x2048.size a)) fun a => Pipeline.Clip.inb (Pipeline.Clip.ok_of (hstart0_2 i a))).WholeWords (EltTy.packing .f32)
  hwxs0_2 : ∀ i : grid0.Coords, EltTy.bits .f32 = 32 ∨ (Rect.unit (s := S32x2048) (fun _ => 0) (fun a => (Pipeline.Clip.of (cc0_transform_2 i a) (S32x2048.size a) (S32x11008.size a)).extent (S32x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x2048.size a < S32x11008.size a
  hwx0_3 : ∀ i : grid0.Coords, EltTy.bits .f32 = 32 ∨ (Rect.unit (s := S32x11008) (fun a => cc0_transform_3 i a * S32x2048.size a) (fun a => (Pipeline.Clip.of (cc0_transform_3 i a) (S32x2048.size a) (S32x11008.size a)).extent (S32x2048.size a)) fun a => Pipeline.Clip.inb (Pipeline.Clip.ok_of (hstart0_3 i a))).WholeWords (EltTy.packing .f32)
  hwxs0_3 : ∀ i : grid0.Coords, EltTy.bits .f32 = 32 ∨ (Rect.unit (s := S32x2048) (fun _ => 0) (fun a => (Pipeline.Clip.of (cc0_transform_3 i a) (S32x2048.size a) (S32x11008.size a)).extent (S32x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x2048.size a < S1x11008.size a
  hwx0_4 : ∀ i : grid0.Coords, EltTy.bits .f32 = 32 ∨ (Rect.unit (s := S1x11008) (fun a => cc0_transform_4 i a * S1x2048.size a) (fun a => (Pipeline.Clip.of (cc0_transform_4 i a) (S1x2048.size a) (S1x11008.size a)).extent (S1x2048.size a)) fun a => Pipeline.Clip.inb (Pipeline.Clip.ok_of (hstart0_4 i a))).WholeWords (EltTy.packing .f32)
  hwxs0_4 : ∀ i : grid0.Coords, EltTy.bits .f32 = 32 ∨ (Rect.unit (s := S1x2048) (fun _ => 0) (fun a => (Pipeline.Clip.of (cc0_transform_4 i a) (S1x2048.size a) (S1x11008.size a)).extent (S1x2048.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x2048.size a < S2048x11008.size a
  hwx0_5 : ∀ i : grid0.Coords, EltTy.bits .f32 = 32 ∨ (Rect.unit (s := S2048x11008) (fun a => cc0_transform_5 i a * S512x2048.size a) (fun a => (Pipeline.Clip.of (cc0_transform_5 i a) (S512x2048.size a) (S2048x11008.size a)).extent (S512x2048.size a)) fun a => Pipeline.Clip.inb (Pipeline.Clip.ok_of (hstart0_5 i a))).WholeWords (EltTy.packing .f32)
  hwxs0_5 : ∀ i : grid0.Coords, EltTy.bits .f32 = 32 ∨ (Rect.unit (s := S512x2048) (fun _ => 0) (fun a => (Pipeline.Clip.of (cc0_transform_5 i a) (S512x2048.size a) (S2048x11008.size a)).extent (S512x2048.size a)) fun a => (Nat.zero_add _).trans_le (Pipeline.Clip.extent_le (Pipeline.Clip.ok_of (hstart0_5 i a)))).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v13) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S256x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S32x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v12) S32x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v14) S1x2048.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v15) S512x2048.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S2048x11008 : Shape := ⟨2, ![2048, 11008]⟩
abbrev S1x11008 : Shape := ⟨2, ![1, 11008]⟩

abbrev nBuf : Space → Nat
  | .hbm => 43
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x1376x1, .i32⟩
  | .hbm, ⟨10, _⟩ => ⟨S1x1x8, .i32⟩
  | .hbm, ⟨11, _⟩ => ⟨S4096x1376x8, .i32⟩
  | .hbm, ⟨12, _⟩ => ⟨S4096x1376x8, .i32⟩
  | .hbm, ⟨13, _⟩ => ⟨S4096x1376x8, .i32⟩
  | .hbm, ⟨14, _⟩ => ⟨S_, .i32⟩
  | .hbm, ⟨15, _⟩ => ⟨S4096x1376x8, .i32⟩
  | .hbm, ⟨16, _⟩ => ⟨S4096x1376x8, .i32⟩
  | .hbm, ⟨17, _⟩ => ⟨S4096x11008, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S4096x11008, .f32⟩
  | .hbm, ⟨34, _⟩ => ⟨S32x128x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S4096x11008, .f32⟩
  | .hbm, ⟨39, _⟩ => ⟨S2048x11008, .f32⟩
  | .hbm, ⟨40, _⟩ => ⟨S1x11008, .f32⟩
  | .hbm, ⟨41, _⟩ => ⟨S2048x11008, .f32⟩
  | .hbm, ⟨42, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  dot_S2048x4096_S4096x11008_S2048x11008_1_0_0_1_n_n_wf : DotDims.WF S2048x4096 S4096x11008 S2048x11008 [1] [0] [0] [1] [] []

variable [Facts₀]

def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.KCases.lean ====
/-
  The grid of the one pallas_call is (4, 6, 16), walked with the last coordinate fastest: point `t` has
  contraction step `k = t % 16`. The body zeroes its accumulator exactly when `k = 0` and writes the output
  block (accumulator plus bias) exactly when `k = 15`; in between it only accumulates. So every point is in one of
  three cases — first, middle, last — and the output window is idle, and not written back, at every point that is
  not a last one. These facts are decided once over the 384 points.
-/
import proofs.«400274_j61847529063064_3_alg».proof.Proof.Gen.Kernel.Launch
import proofs.«400274_j61847529063064_3_alg».proof.Proof.Gen.Kernel.Skeleton
import proofs.«400274_j61847529063064_3_alg».proof.Proof.Gen.Kernel.Points
import proofs.«400274_j61847529063064_3_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset at this point: the contraction step is 0. -/
abbrev condFirst (i : grid0.Coords) : Prop :=
  (Scalar.cmpi .ne (Scalar.extui (Scalar.cmpi .eq (BitVec.ofNat 32 (i 2).val) 0#32)) 0#32) = 1#1
/-- The output block is stored at this point: the contraction step is 15. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

/-- The five input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly off the last contraction step, and is not written back there. -/
theorem idle5 : ∀ t : Fin cfg0.N, ¬condLast (grid0.coords t) → cfg0.idle 5 (grid0.coords t) = true := by decide +kernel
theorem live5 : ∀ t : Fin cfg0.N, condLast (grid0.coords t) → cfg0.idle 5 (grid0.coords t) = false := by decide +kernel
theorem noFlush5 : ∀ t : Fin cfg0.N, ¬condLast (grid0.coords t) → (cfg0.win 5).flush t = false := by decide +kernel

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S512x2048 .f32 := Memref.whole cc0_scratch0
/-- Views through which the accumulator's and the output block's contents are stated. -/
abbrev VS : View sig .tc .vmem S512x2048 .f32 := scM.view
abbrev VO : View sig .tc .vmem S512x2048 .f32 := (Memref.whole cc0_stg5_0 : Memref sig .tc .vmem S512x2048 .f32).view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The skeletons' congruence lemmas, named once here so that the three runs downstream share one copy. -/
theorem skel_congr_realized : True := by
  have := @k0_part1_skel.congr_simp; have := @cc0__qlinear_kernel_skel.congr_simp
  trivial

end Cert.Kernel.Body

end
-- ==== Proof.KRunFirst.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is 0, on any whole staging memrefs: the accumulator, found at
    anything, is zeroed and then holds the first stretch's product; every staging buffer is left as found. The
    accumulator's stores, last first, are the witness `LS`. -/
noncomputable def runFirst (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : condFirst i) (hc1 : ¬condLast i)
    (x0 : Vec F S512x256 .bf16) (x1 : Vec F S256x256 .i32) (x2 x3 : Vec F S32x2048 .f32) :
    { LS : List (View.Piece (Elt F) S512x2048 .f32) //
      ∀ (x4 : Vec F S1x2048 .f32) (xo : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun x4 xo E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Body

end
-- ==== Proof.KRunMiddle.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is neither 0 nor 15: the accumulator, found at `xs`, has this
    stretch's product added; every staging buffer is left as found. -/
noncomputable def runMiddle (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : ¬condLast i)
    (x0 : Vec F S512x256 .bf16) (x1 : Vec F S256x256 .i32) (x2 x3 : Vec F S32x2048 .f32) (xs : Vec F S512x2048 .f32) :
    { LS : List (View.Piece (Elt F) S512x2048 .f32) //
      ∀ (x4 : Vec F S1x2048 .f32) (xo : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun x4 xo E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Body

end
-- ==== Proof.KRunLast.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is 15: the accumulator, found at `xs`, has the last stretch's
    product added, and the output's staging buffer, found at anything, is stored the accumulator plus the bias row.
    The output's stores `LO` and the accumulator's `LS` are the witnesses. -/
noncomputable def runLast (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, ?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Body

end
-- ==== Proof.KFrame.lean ====
/-
  The frame of the program: every weakly fair execution terminates, faults nowhere, and leaves the five argument
  arrays as they were. The pipeline's proof data name what each INPUT window's staging buffer holds after the body
  — its block of the array as the pallas_call finds it, on the part a clipped fetch fills, anything past the
  array's end — and say nothing of the output window or of the accumulator, which the frame does not read. At each
  point the body is one of its three control cases; in each it only loads the inputs' buffers, so it hands them
  back as it found them.
-/
import proofs.«400274_j61847529063064_3_alg».proof.Proof.KRunFirst
import proofs.«400274_j61847529063064_3_alg».proof.Proof.KRunMiddle
import proofs.«400274_j61847529063064_3_alg».proof.Proof.KRunLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose staging contents the frame forgets: the output's. -/
abbrev fgt5 : Fin 6 → Bool := fun | 0 => false | 1 => false | 2 => false | 3 => false | 4 => false | 5 => true | ⟨_ + 6, h⟩ => absurd h (Nat.not_lt.2 (Nat.le_add_left _ _))

/-- A clipped input window's staging buffer after the body: its block on the part the fetch fills, a fixed word
    past the array's end (nothing reads it). -/
def held1 (c : Dev nD) (t : Fin cfg0.N) : S256x256.Idx → Elt F .i32 :=
  win0_1.fill (grid0.coords t) (fun _ => (0#32 : BitVec 32)) (iblk m c 1 t)
def held2 (c : Dev nD) (t : Fin cfg0.N) : S32x2048.Idx → Elt F .f32 :=
  win0_2.fill (grid0.coords t) (fun _ => Scalar.ofBits .f32 0#32) (iblk m c 2 t)
def held3 (c : Dev nD) (t : Fin cfg0.N) : S32x2048.Idx → Elt F .f32 :=
  win0_3.fill (grid0.coords t) (fun _ => Scalar.ofBits .f32 0#32) (iblk m c 3 t)
def held4 (c : Dev nD) (t : Fin cfg0.N) : S1x2048.Idx → Elt F .f32 :=
  win0_4.fill (grid0.coords t) (fun _ => Scalar.ofBits .f32 0#32) (iblk m c 4 t)

/-- The frame's proof data on core `c`. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => held1 m c t
    | ⟨2, _⟩ => held2 m c t
    | ⟨3, _⟩ => held3 m c t
    | ⟨4, _⟩ => held4 m c t
    | ⟨5, _⟩ => fun _ => Scalar.ofBits .f32 0#32
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter1 (c : Dev nD) (t : Fin cfg0.N) : (fdats m 0 c).after 1 t = held1 m c t := by dsimp only [fdats]
theorem fafter2 (c : Dev nD) (t : Fin cfg0.N) : (fdats m 0 c).after 2 t = held2 m c t := by dsimp only [fdats]
theorem fafter3 (c : Dev nD) (t : Fin cfg0.N) : (fdats m 0 c).after 3 t = held3 m c t := by dsimp only [fdats]
theorem fafter4 (c : Dev nD) (t : Fin cfg0.N) : (fdats m 0 c).after 4 t = held4 m c t := by dsimp only [fdats]

/-- Input 0's buffer holds its block at every point. -/
theorem fbefore0 (c : Dev nD) (t : Fin cfg0.N) (d) : (fdats m 0 c).before 0 t d = iblk m c 0 t :=
  before0_0_of m (fdats m 0 c) (fA_eq m c 0) (fafter0 m c) t d

/-- A clipped input's buffer holds, at every point, its block on the part the fetch fills and whatever was there
    past the array's end: fetched there or not (unfetched, the block index has not moved). -/
theorem fbefore1 (c : Dev nD) (t : Fin cfg0.N) (d) :
    (fdats m 0 c).before 1 t d = win0_1.fill (grid0.coords t) d (iblk m c 1 t) :=
  ((fdats m 0 c).before_in_eq_fetched 1 rfl (fun _ => rfl)
    (fun t t' h => funext fun a => by
      show Pipeline.Clip.of ((cfg0.win 1).index t a) _ _ = Pipeline.Clip.of ((cfg0.win 1).index t' a) _ _
      rw [h])
    (fun t => by rw [fafter1]; exact win0_1.cut_fill _ _ _) t d)
theorem fbefore2 (c : Dev nD) (t : Fin cfg0.N) (d) :
    (fdats m 0 c).before 2 t d = win0_2.fill (grid0.coords t) d (iblk m c 2 t) :=
  ((fdats m 0 c).before_in_eq_fetched 2 rfl (fun _ => rfl)
    (fun t t' h => funext fun a => by
      show Pipeline.Clip.of ((cfg0.win 2).index t a) _ _ = Pipeline.Clip.of ((cfg0.win 2).index t' a) _ _
      rw [h])
    (fun t => by rw [fafter2]; exact win0_2.cut_fill _ _ _) t d)
theorem fbefore3 (c : Dev nD) (t : Fin cfg0.N) (d) :
    (fdats m 0 c).before 3 t d = win0_3.fill (grid0.coords t) d (iblk m c 3 t) :=
  ((fdats m 0 c).before_in_eq_fetched 3 rfl (fun _ => rfl)
    (fun t t' h => funext fun a => by
      show Pipeline.Clip.of ((cfg0.win 3).index t a) _ _ = Pipeline.Clip.of ((cfg0.win 3).index t' a) _ _
      rw [h])
    (fun t => by rw [fafter3]; exact win0_3.cut_fill _ _ _) t d)
theorem fbefore4 (c : Dev nD) (t : Fin cfg0.N) (d) :
    (fdats m 0 c).before 4 t d = win0_4.fill (grid0.coords t) d (iblk m c 4 t) :=
  ((fdats m 0 c).before_in_eq_fetched 4 rfl (fun _ => rfl)
    (fun t t' h => funext fun a => by
      show Pipeline.Clip.of ((cfg0.win 4).index t a) _ _ = Pipeline.Clip.of ((cfg0.win 4).index t' a) _ _
      rw [h])
    (fun t => by rw [fafter4]; exact win0_4.cut_fill _ _ _) t d)

set_option maxHeartbeats 4000000 in
/-- The body obligation at every point: whichever control case the point is in, the body runs, leaves the inputs'
    buffers as it found them, and the accumulator and the output's buffer at contents the frame does not name. -/
theorem fbody (c : Dev nD) : BodyObligationLoose (fdats (F := F) m 0 c) (defs₀ (F := F)) Variants.none () Set.univ fgt5 := fun t => by
  rw [bigSep_W0, bigSep_W0]
  simp only
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, PhiA_eq]
  simp only [fbefore0, fbefore1, fbefore2, fbefore3, fbefore4, fafter0]
  show _ ⊢ wp frame (wpE (defs₀ (F := F)) Variants.none c none) Set.univ (bodyAt0 t) _
  unfold bodyAt0
  iintro ⟨⟨⟨%ds, HS⟩, Hg⟩, Ho, ⟨%d0, H0⟩, ⟨%d1, H1⟩, ⟨%d2, H2⟩, ⟨%d3, H3⟩, ⟨%d4, H4⟩, ⟨%X5, H5⟩⟩
  by_cases h0 : t.val % 16 = 0
  · have hc0 : condFirst (grid0.coords t) := (hcondFirst t).mpr h0
    have hc1 : ¬condLast (grid0.coords t) := fun h => by have := (hcondLast t).mp h; omega
    iapply ((runFirst c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t))).2 ((win0 4).fill (grid0.coords t) d4 (iblk m c 4 t)) X5 Set.univ _)
    isplitl [H0]; · iexact H0
    isplitl [H1]; · iexact H1
    isplitl [H2]; · iexact H2
    isplitl [H3]; · iexact H3
    isplitl [H4]; · iexact H4
    isplitl [H5]; · iexact H5
    isplitl [HS]; · iexists ds; iexact HS
    iintro ⟨H0, H1, H2, H3, H4, H5, ⟨%fs, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]
    · iexists d1
      change _ ⊢ owns (c : Thread nD τ) (ms1 t) fullShare (win0_1.fill (grid0.coords t) d1 (win0_1.cut (grid0.coords t) (held1 m c t)))
      rw [show win0_1.cut (grid0.coords t) (held1 m c t) = iblk m c 1 t from win0_1.cut_fill _ _ _]; try iexact H1
    isplitl [H2]
    · iexists d2
      change _ ⊢ owns (c : Thread nD τ) (ms2 t) fullShare (win0_2.fill (grid0.coords t) d2 (win0_2.cut (grid0.coords t) (held2 m c t)))
      rw [show win0_2.cut (grid0.coords t) (held2 m c t) = iblk m c 2 t from win0_2.cut_fill _ _ _]; try iexact H2
    isplitl [H3]
    · iexists d3
      change _ ⊢ owns (c : Thread nD τ) (ms3 t) fullShare (win0_3.fill (grid0.coords t) d3 (win0_3.cut (grid0.coords t) (held3 m c t)))
      rw [show win0_3.cut (grid0.coords t) (held3 m c t) = iblk m c 3 t from win0_3.cut_fill _ _ _]; try iexact H3
    isplitl [H4]
    · iexists d4
      change _ ⊢ owns (c : Thread nD τ) (ms4 t) fullShare (win0_4.fill (grid0.coords t) d4 (win0_4.cut (grid0.coords t) (held4 m c t)))
      rw [show win0_4.cut (grid0.coords t) (held4 m c t) = iblk m c 4 t from win0_4.cut_fill _ _ _]; try iexact H4
    iexists X5; iexact H5
  · by_cases h1 : t.val % 16 = 15
    · have hc0 : ¬condFirst (grid0.coords t) := fun h => h0 ((hcondFirst t).mp h)
      have hc1 : condLast (grid0.coords t) := (hcondLast t).mpr h1
      iapply ((runLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) ds).2.2 Set.univ _)
      isplitl [H0]; · iexact H0
      isplitl [H1]; · iexact H1
      isplitl [H2]; · iexact H2
      isplitl [H3]; · iexact H3
      isplitl [H4]; · iexact H4
      isplitl [H5]; · iexists X5; iexact H5
      isplitl [HS]; · iexact HS
      iintro ⟨H0, H1, H2, H3, H4, ⟨%f5, H5⟩, ⟨%fs, HS⟩⟩
      isplitl [HS Hg]
      · isplitl [HS]
        · iexists _; unfold owns; iexists _; isplitr
          swap; · iexact HS
          ipureintro; rfl
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]; try iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]; try iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]; try iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]; try iexact H4
      iexists _; unfold owns; iexists _; isplitr
      swap; · iexact H5
      ipureintro; rfl
    · have hc0 : ¬condFirst (grid0.coords t) := fun h => h0 ((hcondFirst t).mp h)
      have hc1 : ¬condLast (grid0.coords t) := fun h => h1 ((hcondLast t).mp h)
      iapply ((runMiddle c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ds).2 ((win0 4).fill (grid0.coords t) d4 (iblk m c 4 t)) X5 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%fs, HS⟩⟩
      isplitl [HS Hg]
      · isplitl [HS]
        · iexists _; unfold owns; iexists _; isplitr
          swap; · iexact HS
          ipureintro; rfl
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]; try iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]; try iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]; try iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]; try iexact H4
      iexists X5; iexact H5

/-! ## The run and the frame -/

set_option backward.isDefEq.respectTransparency.types false in
/-- Every weakly fair execution of @main terminates without fault; every input array of the pallas_call, and every
    other buffer the pallas_call does not stage, ends as the pallas_call found it. -/
theorem frun : θ_run defs (onTc (τ := τ) (main (F := F))) (s₀ m ρ)
    (Pipeline.RDat.FramePost cfg0 (fun c => (fdats m 0 c).toRForget fgt5) (V m)) :=
  Pipeline.RDat.θ_run_frame cfgs (0 : Fin 1) launch0 defs₀ Variants.none (fun c => (fdats m 0 c).toRForget fgt5) m ρ main
    (hbody := fun c => (fbody m c).toRForget)
    (hshare := fun c w => (fdats m 0 c).share_full (fun _ => rfl) w) (howed := fun _ _ => rfl)
    (V := V m) (hmain := hmain m Variants.none) (hA := fun c w => fA_eq m c w) (hΦ := fun _ _ => rfl)

/-- The frame: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in (cfg₁ := cfg0) (rdat := fun c => (fdats m 0 c).toRForget fgt5) (V := V m) h c 1 rfl).trans ((fA_eq m c 1).trans (V_main_arg1 m c)),
      ((h c).2 main_arg2 (Pipeline.mem_restRefs_of main_arg2 (by decide) (by decide))).trans (V_main_arg2 m c),
      (Pipeline.RDat.FramePost.arr_in (cfg₁ := cfg0) (rdat := fun c => (fdats m 0 c).toRForget fgt5) (V := V m) h c 2 rfl).trans ((fA_eq m c 2).trans (V_main_arg3 m c)),
      ((h c).2 main_arg4 (Pipeline.mem_restRefs_of main_arg4 (by decide) (by decide))).trans (V_main_arg4 m c)⟩) (frun m ρ)

end Cert.Kernel.Body

end
-- ==== Proof.KICases.lean ====
/-
  The grid of the one pallas_call is (4, 6, 16), walked with the last coordinate fastest: point `t` has
  contraction step `k = t % 16`. The body zeroes its accumulator exactly when `k = 0` and writes the output
  block (accumulator plus bias) exactly when `k = 15`; in between it only accumulates. So every point is in one of
  three cases — first, middle, last — and the output window is idle, and not written back, at every point that is
  not a last one. These facts are decided once over the 384 points.
-/
import proofs.«400274_j61847529063064_3_alg».proof.Proof.Gen.KernelIdeal.Launch
import proofs.«400274_j61847529063064_3_alg».proof.Proof.Gen.KernelIdeal.Skeleton
import proofs.«400274_j61847529063064_3_alg».proof.Proof.Gen.KernelIdeal.Points
import proofs.«400274_j61847529063064_3_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset at this point: the contraction step is 0. -/
abbrev condFirst (i : grid0.Coords) : Prop :=
  (Scalar.cmpi .ne (Scalar.extui (Scalar.cmpi .eq (BitVec.ofNat 32 (i 2).val) 0#32)) 0#32) = 1#1
/-- The output block is stored at this point: the contraction step is 15. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

/-- The five input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly off the last contraction step, and is not written back there. -/
theorem idle5 : ∀ t : Fin cfg0.N, ¬condLast (grid0.coords t) → cfg0.idle 5 (grid0.coords t) = true := by decide +kernel
theorem live5 : ∀ t : Fin cfg0.N, condLast (grid0.coords t) → cfg0.idle 5 (grid0.coords t) = false := by decide +kernel
theorem noFlush5 : ∀ t : Fin cfg0.N, ¬condLast (grid0.coords t) → (cfg0.win 5).flush t = false := by decide +kernel

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S512x2048 .f32 := Memref.whole cc0_scratch0
/-- Views through which the accumulator's and the output block's contents are stated. -/
abbrev VS : View sig .tc .vmem S512x2048 .f32 := scM.view
abbrev VO : View sig .tc .vmem S512x2048 .f32 := (Memref.whole cc0_stg5_0 : Memref sig .tc .vmem S512x2048 .f32).view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The skeletons' congruence lemmas, named once here so that the three runs downstream share one copy. -/
theorem skel_congr_realized : True := by
  have := @k0_part1_skel.congr_simp; have := @cc0__qlinear_kernel_skel.congr_simp
  trivial

end Cert.KernelIdeal.Body

end
-- ==== Proof.KIRunFirst.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is 0, on any whole staging memrefs: the accumulator, found at
    anything, is zeroed and then holds the first stretch's product; every staging buffer is left as found. The
    accumulator's stores, last first, are the witness `LS`. -/
noncomputable def runFirst (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : condFirst i) (hc1 : ¬condLast i)
    (x0 : Vec F S512x256 .bf16) (x1 : Vec F S256x256 .i32) (x2 x3 : Vec F S32x2048 .f32) :
    { LS : List (View.Piece (Elt F) S512x2048 .f32) //
      ∀ (x4 : Vec F S1x2048 .f32) (xo : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun x4 xo E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Body

end
-- ==== Proof.KIRunMiddle.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is neither 0 nor 15: the accumulator, found at `xs`, has this
    stretch's product added; every staging buffer is left as found. -/
noncomputable def runMiddle (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : ¬condLast i)
    (x0 : Vec F S512x256 .bf16) (x1 : Vec F S256x256 .i32) (x2 x3 : Vec F S32x2048 .f32) (xs : Vec F S512x2048 .f32) :
    { LS : List (View.Piece (Elt F) S512x2048 .f32) //
      ∀ (x4 : Vec F S1x2048 .f32) (xo : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun x4 xo E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Body

end
-- ==== Proof.KIRunLast.lean ====
/-
  The kernel body run once, symbolically, in one of its three control cases, on any whole staging memrefs at any
  contents: it terminates without fault, leaves every input's staging buffer as it found it, and leaves the
  accumulator (and, at the last contraction step, the output's staging buffer) at the stores the run met.
-/
import proofs.«400274_j61847529063064_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point whose contraction step is 15: the accumulator, found at `xs`, has the last stretch's
    product added, and the output's staging buffer, found at anything, is stored the accumulator plus the bias row.
    The output's stores `LO` and the accumulator's `LS` are the witnesses. -/
noncomputable def runLast (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, ?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Body

end
-- ==== Proof.KIFrame.lean ====
/-
  The frame of the program: every weakly fair execution terminates, faults nowhere, and leaves the five argument
  arrays as they were. The pipeline's proof data name what each INPUT window's staging buffer holds after the body
  — its block of the array as the pallas_call finds it, on the part a clipped fetch fills, anything past the
  array's end — and say nothing of the output window or of the accumulator, which the frame does not read. At each
  point the body is one of its three control cases; in each it only loads the inputs' buffers, so it hands them
  back as it found them.
-/
import proofs.«400274_j61847529063064_3_alg».proof.Proof.KIRunFirst
import proofs.«400274_j61847529063064_3_alg».proof.Proof.KIRunMiddle
import proofs.«400274_j61847529063064_3_alg».proof.Proof.KIRunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose staging contents the frame forgets: the output's. -/
abbrev fgt5 : Fin 6 → Bool := fun | 0 => false | 1 => false | 2 => false | 3 => false | 4 => false | 5 => true | ⟨_ + 6, h⟩ => absurd h (Nat.not_lt.2 (Nat.le_add_left _ _))

/-- A clipped input window's staging buffer after the body: its block on the part the fetch fills, a fixed word
    past the array's end (nothing reads it). -/
def held1 (c : Dev nD) (t : Fin cfg0.N) : S256x256.Idx → Elt F .i32 :=
  win0_1.fill (grid0.coords t) (fun _ => (0#32 : BitVec 32)) (iblk m c 1 t)
def held2 (c : Dev nD) (t : Fin cfg0.N) : S32x2048.Idx → Elt F .f32 :=
  win0_2.fill (grid0.coords t) (fun _ => Scalar.ofBits .f32 0#32) (iblk m c 2 t)
def held3 (c : Dev nD) (t : Fin cfg0.N) : S32x2048.Idx → Elt F .f32 :=
  win0_3.fill (grid0.coords t) (fun _ => Scalar.ofBits .f32 0#32) (iblk m c 3 t)
def held4 (c : Dev nD) (t : Fin cfg0.N) : S1x2048.Idx → Elt F .f32 :=
  win0_4.fill (grid0.coords t) (fun _ => Scalar.ofBits .f32 0#32) (iblk m c 4 t)

/-- The frame's proof data on core `c`. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => held1 m c t
    | ⟨2, _⟩ => held2 m c t
    | ⟨3, _⟩ => held3 m c t
    | ⟨4, _⟩ => held4 m c t
    | ⟨5, _⟩ => fun _ => Scalar.ofBits .f32 0#32
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter1 (c : Dev nD) (t : Fin cfg0.N) : (fdats m 0 c).after 1 t = held1 m c t := by dsimp only [fdats]
theorem fafter2 (c : Dev nD) (t : Fin cfg0.N) : (fdats m 0 c).after 2 t = held2 m c t := by dsimp only [fdats]
theorem fafter3 (c : Dev nD) (t : Fin cfg0.N) : (fdats m 0 c).after 3 t = held3 m c t := by dsimp only [fdats]
theorem fafter4 (c : Dev nD) (t : Fin cfg0.N) : (fdats m 0 c).after 4 t = held4 m c t := by dsimp only [fdats]

/-- Input 0's buffer holds its block at every point. -/
theorem fbefore0 (c : Dev nD) (t : Fin cfg0.N) (d) : (fdats m 0 c).before 0 t d = iblk m c 0 t :=
  before0_0_of m (fdats m 0 c) (fA_eq m c 0) (fafter0 m c) t d

/-- A clipped input's buffer holds, at every point, its block on the part the fetch fills and whatever was there
    past the array's end: fetched there or not (unfetched, the block index has not moved). -/
theorem fbefore1 (c : Dev nD) (t : Fin cfg0.N) (d) :
    (fdats m 0 c).before 1 t d = win0_1.fill (grid0.coords t) d (iblk m c 1 t) :=
  ((fdats m 0 c).before_in_eq_fetched 1 rfl (fun _ => rfl)
    (fun t t' h => funext fun a => by
      show Pipeline.Clip.of ((cfg0.win 1).index t a) _ _ = Pipeline.Clip.of ((cfg0.win 1).index t' a) _ _
      rw [h])
    (fun t => by rw [fafter1]; exact win0_1.cut_fill _ _ _) t d)
theorem fbefore2 (c : Dev nD) (t : Fin cfg0.N) (d) :
    (fdats m 0 c).before 2 t d = win0_2.fill (grid0.coords t) d (iblk m c 2 t) :=
  ((fdats m 0 c).before_in_eq_fetched 2 rfl (fun _ => rfl)
    (fun t t' h => funext fun a => by
      show Pipeline.Clip.of ((cfg0.win 2).index t a) _ _ = Pipeline.Clip.of ((cfg0.win 2).index t' a) _ _
      rw [h])
    (fun t => by rw [fafter2]; exact win0_2.cut_fill _ _ _) t d)
theorem fbefore3 (c : Dev nD) (t : Fin cfg0.N) (d) :
    (fdats m 0 c).before 3 t d = win0_3.fill (grid0.coords t) d (iblk m c 3 t) :=
  ((fdats m 0 c).before_in_eq_fetched 3 rfl (fun _ => rfl)
    (fun t t' h => funext fun a => by
      show Pipeline.Clip.of ((cfg0.win 3).index t a) _ _ = Pipeline.Clip.of ((cfg0.win 3).index t' a) _ _
      rw [h])
    (fun t => by rw [fafter3]; exact win0_3.cut_fill _ _ _) t d)
theorem fbefore4 (c : Dev nD) (t : Fin cfg0.N) (d) :
    (fdats m 0 c).before 4 t d = win0_4.fill (grid0.coords t) d (iblk m c 4 t) :=
  ((fdats m 0 c).before_in_eq_fetched 4 rfl (fun _ => rfl)
    (fun t t' h => funext fun a => by
      show Pipeline.Clip.of ((cfg0.win 4).index t a) _ _ = Pipeline.Clip.of ((cfg0.win 4).index t' a) _ _
      rw [h])
    (fun t => by rw [fafter4]; exact win0_4.cut_fill _ _ _) t d)

set_option maxHeartbeats 4000000 in
/-- The body obligation at every point: whichever control case the point is in, the body runs, leaves the inputs'
    buffers as it found them, and the accumulator and the output's buffer at contents the frame does not name. -/
theorem fbody (c : Dev nD) : BodyObligationLoose (fdats (F := F) m 0 c) (defs₀ (F := F)) Variants.none () Set.univ fgt5 := fun t => by
  rw [bigSep_W0, bigSep_W0]
  simp only
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, PhiA_eq]
  simp only [fbefore0, fbefore1, fbefore2, fbefore3, fbefore4, fafter0]
  show _ ⊢ wp frame (wpE (defs₀ (F := F)) Variants.none c none) Set.univ (bodyAt0 t) _
  unfold bodyAt0
  iintro ⟨⟨⟨%ds, HS⟩, Hg⟩, Ho, ⟨%d0, H0⟩, ⟨%d1, H1⟩, ⟨%d2, H2⟩, ⟨%d3, H3⟩, ⟨%d4, H4⟩, ⟨%X5, H5⟩⟩
  by_cases h0 : t.val % 16 = 0
  · have hc0 : condFirst (grid0.coords t) := (hcondFirst t).mpr h0
    have hc1 : ¬condLast (grid0.coords t) := fun h => by have := (hcondLast t).mp h; omega
    iapply ((runFirst c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t))).2 ((win0 4).fill (grid0.coords t) d4 (iblk m c 4 t)) X5 Set.univ _)
    isplitl [H0]; · iexact H0
    isplitl [H1]; · iexact H1
    isplitl [H2]; · iexact H2
    isplitl [H3]; · iexact H3
    isplitl [H4]; · iexact H4
    isplitl [H5]; · iexact H5
    isplitl [HS]; · iexists ds; iexact HS
    iintro ⟨H0, H1, H2, H3, H4, H5, ⟨%fs, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]
    · iexists d1
      change _ ⊢ owns (c : Thread nD τ) (ms1 t) fullShare (win0_1.fill (grid0.coords t) d1 (win0_1.cut (grid0.coords t) (held1 m c t)))
      rw [show win0_1.cut (grid0.coords t) (held1 m c t) = iblk m c 1 t from win0_1.cut_fill _ _ _]; try iexact H1
    isplitl [H2]
    · iexists d2
      change _ ⊢ owns (c : Thread nD τ) (ms2 t) fullShare (win0_2.fill (grid0.coords t) d2 (win0_2.cut (grid0.coords t) (held2 m c t)))
      rw [show win0_2.cut (grid0.coords t) (held2 m c t) = iblk m c 2 t from win0_2.cut_fill _ _ _]; try iexact H2
    isplitl [H3]
    · iexists d3
      change _ ⊢ owns (c : Thread nD τ) (ms3 t) fullShare (win0_3.fill (grid0.coords t) d3 (win0_3.cut (grid0.coords t) (held3 m c t)))
      rw [show win0_3.cut (grid0.coords t) (held3 m c t) = iblk m c 3 t from win0_3.cut_fill _ _ _]; try iexact H3
    isplitl [H4]
    · iexists d4
      change _ ⊢ owns (c : Thread nD τ) (ms4 t) fullShare (win0_4.fill (grid0.coords t) d4 (win0_4.cut (grid0.coords t) (held4 m c t)))
      rw [show win0_4.cut (grid0.coords t) (held4 m c t) = iblk m c 4 t from win0_4.cut_fill _ _ _]; try iexact H4
    iexists X5; iexact H5
  · by_cases h1 : t.val % 16 = 15
    · have hc0 : ¬condFirst (grid0.coords t) := fun h => h0 ((hcondFirst t).mp h)
      have hc1 : condLast (grid0.coords t) := (hcondLast t).mpr h1
      iapply ((runLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) ds).2.2 Set.univ _)
      isplitl [H0]; · iexact H0
      isplitl [H1]; · iexact H1
      isplitl [H2]; · iexact H2
      isplitl [H3]; · iexact H3
      isplitl [H4]; · iexact H4
      isplitl [H5]; · iexists X5; iexact H5
      isplitl [HS]; · iexact HS
      iintro ⟨H0, H1, H2, H3, H4, ⟨%f5, H5⟩, ⟨%fs, HS⟩⟩
      isplitl [HS Hg]
      · isplitl [HS]
        · iexists _; unfold owns; iexists _; isplitr
          swap; · iexact HS
          ipureintro; rfl
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]; try iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]; try iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]; try iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]; try iexact H4
      iexists _; unfold owns; iexists _; isplitr
      swap; · iexact H5
      ipureintro; rfl
    · have hc0 : ¬condFirst (grid0.coords t) := fun h => h0 ((hcondFirst t).mp h)
      have hc1 : ¬condLast (grid0.coords t) := fun h => h1 ((hcondLast t).mp h)
      iapply ((runMiddle c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ds).2 ((win0 4).fill (grid0.coords t) d4 (iblk m c 4 t)) X5 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%fs, HS⟩⟩
      isplitl [HS Hg]
      · isplitl [HS]
        · iexists _; unfold owns; iexists _; isplitr
          swap; · iexact HS
          ipureintro; rfl
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]; try iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]; try iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]; try iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]; try iexact H4
      iexists X5; iexact H5

/-! ## The run and the frame -/

set_option backward.isDefEq.respectTransparency.types false in
/-- Every weakly fair execution of @main terminates without fault; every input array of the pallas_call, and every
    other buffer the pallas_call does not stage, ends as the pallas_call found it. -/
theorem frun : θ_run defs (onTc (τ := τ) (main (F := F))) (s₀ m ρ)
    (Pipeline.RDat.FramePost cfg0 (fun c => (fdats m 0 c).toRForget fgt5) (V m)) :=
  Pipeline.RDat.θ_run_frame cfgs (0 : Fin 1) launch0 defs₀ Variants.none (fun c => (fdats m 0 c).toRForget fgt5) m ρ main
    (hbody := fun c => (fbody m c).toRForget)
    (hshare := fun c w => (fdats m 0 c).share_full (fun _ => rfl) w) (howed := fun _ _ => rfl)
    (V := V m) (hmain := hmain m Variants.none) (hA := fun c w => fA_eq m c w) (hΦ := fun _ _ => rfl)

/-- The frame: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in (cfg₁ := cfg0) (rdat := fun c => (fdats m 0 c).toRForget fgt5) (V := V m) h c 1 rfl).trans ((fA_eq m c 1).trans (V_main_arg1 m c)),
      ((h c).2 main_arg2 (Pipeline.mem_restRefs_of main_arg2 (by decide) (by decide))).trans (V_main_arg2 m c),
      (Pipeline.RDat.FramePost.arr_in (cfg₁ := cfg0) (rdat := fun c => (fdats m 0 c).toRForget fgt5) (V := V m) h c 2 rfl).trans ((fA_eq m c 2).trans (V_main_arg3 m c)),
      ((h c).2 main_arg4 (Pipeline.mem_restRefs_of main_arg4 (by decide) (by decide))).trans (V_main_arg4 m c)⟩) (frun m ρ)

end Cert.KernelIdeal.Body

end
-- ==== Proof.Spec.lean ====
/-
  The arithmetic both programs compute, stated once over whole arrays of extended reals and 32-bit words.

  A packed word holds eight 4-bit fields; field `c` of word `w` is `(w >>ₛ 4c) &&& 15` (`nib`), read as a real
  (`nibR`). Output column `n` takes field `n % 8` of packed column `n / 8`; contraction row `K` belongs to
  group `K / 128`. The dequantised weight is `(q − z) · s` in the reference (`wR`) and `q · s − z · s` in the
  kernel (`wK`, with `z · s` folded beforehand, `zs`); the result is `x · W + b`, the contraction taken whole by the
  reference (`outR`) and in sixteen consecutive stretches of 256 rows by the kernel (`outK`, partial sums `accK`).
-/
import Idealize.ShloMosaic.PureOps.Ideal
import Idealize.ShloMosaic.Lib.ValueIdx

noncomputable section

open scoped BigOperators

namespace Cert.QLin

open Idealize.ShloMosaic Idealize.ShloMosaic.ValueIdx

abbrev AX : Type := (⟨2, ![2048, 4096]⟩ : Shape).Idx → EReal
abbrev AQW : Type := (⟨2, ![4096, 1376]⟩ : Shape).Idx → BitVec 32
abbrev AQZ : Type := (⟨2, ![32, 1376]⟩ : Shape).Idx → BitVec 32
abbrev ASC : Type := (⟨2, ![32, 11008]⟩ : Shape).Idx → EReal
abbrev AB : Type := (⟨1, ![11008]⟩ : Shape).Idx → EReal
abbrev AO : Type := (⟨2, ![2048, 11008]⟩ : Shape).Idx → EReal

/-- Field `c` of a packed word: shift right (arithmetic) by `4c`, keep the low four bits. -/
def nib (w : BitVec 32) (c : Fin 8) : BitVec 32 := (w.sshiftRight' (BitVec.ofNat 32 c.val * 4#32)) &&& 15#32

/-- The field as an extended real (an integer between 0 and 15). -/
def nibR (w : BitVec 32) (c : Fin 8) : EReal := (((nib w c).toInt : ℝ) : EReal)

/-- The packed column holding output column `n`, and the field inside it. -/
def col8 (n : Fin 11008) : Fin 1376 := ⟨n.val / 8, by omega⟩
def lane8 (n : Fin 11008) : Fin 8 := ⟨n.val % 8, by omega⟩
/-- The quantisation group of contraction row `K`. -/
def grp (K : Fin 4096) : Fin 32 := ⟨K.val / 128, by omega⟩
/-- Row `kk` of the `kt`-th stretch of 256 contraction rows. -/
def Kidx (kt : Fin 16) (kk : Fin 256) : Fin 4096 := ⟨256 * kt.val + kk.val, by omega⟩

/-- Zero point times scale, per group and output column. -/
def zs (QZ : AQZ) (SC : ASC) (g : Fin 32) (n : Fin 11008) : EReal :=
  nibR (QZ (ix2 g (col8 n))) (lane8 n) * SC (ix2 g n)

/-- The kernel's dequantised weight: `q · s − z · s`. -/
def wK (QW : AQW) (QZ : AQZ) (SC : ASC) (K : Fin 4096) (n : Fin 11008) : EReal :=
  nibR (QW (ix2 K (col8 n))) (lane8 n) * SC (ix2 (grp K) n) - zs QZ SC (grp K) n

/-- The reference's: `(q − z) · s`. -/
def wR (QW : AQW) (QZ : AQZ) (SC : ASC) (K : Fin 4096) (n : Fin 11008) : EReal :=
  (nibR (QW (ix2 K (col8 n))) (lane8 n) - nibR (QZ (ix2 (grp K) (col8 n))) (lane8 n)) * SC (ix2 (grp K) n)

/-- One stretch's contribution to output entry `(r, n)`. -/
def stretch (X : AX) (QW : AQW) (QZ : AQZ) (SC : ASC) (r : Fin 2048) (n : Fin 11008) (kt : Fin 16) : EReal :=
  ∑ kk : Fin 256, X (ix2 r (Kidx kt kk)) * wK QW QZ SC (Kidx kt kk) n

/-- The running sum after stretches `0 … k`, as the kernel builds it: from zero, one stretch added at a time. -/
def accK (X : AX) (QW : AQW) (QZ : AQZ) (SC : ASC) (r : Fin 2048) (n : Fin 11008) : ℕ → EReal
  | 0 => 0 + stretch X QW QZ SC r n 0
  | k + 1 => accK X QW QZ SC r n k + (if h : k + 1 < 16 then stretch X QW QZ SC r n ⟨k + 1, h⟩ else 0)

/-- The kernel's result. -/
def outK (X : AX) (QW : AQW) (QZ : AQZ) (SC : ASC) (B : AB) : AO :=
  fun i => accK X QW QZ SC (i 0) (i 1) 15 + B (ix1 (i 1))

/-- The reference's result. -/
def outR (X : AX) (QW : AQW) (QZ : AQZ) (SC : ASC) (B : AB) : AO :=
  fun i => (∑ K : Fin 4096, X (ix2 (i 0) K) * wR QW QZ SC K (i 1)) + B (ix1 (i 1))

end Cert.QLin

end
-- ==== Proof.PayIdx.lean ====
/-
  The kernel body's arithmetic read at one index, over the extended reals and 32-bit words.

  The body's payloads are whole-vector terms. Here each is read at an index given by its coordinates:
  the unpacking of a 256 × 256 tile of packed words into 256 × 2048 four-bit fields, the masked column sums that
  select one of the 32 group rows, the row-dependent choice between the two groups of a 256-row stretch, and the
  product with the activations added to the running sum.
-/
import proofs.«400274_j61847529063064_3_alg».proof.Proof.Gen.KernelIdeal.Skeleton
import proofs.«400274_j61847529063064_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx Cert.QLin

/-- The group row the body selects for row kk of its 256-row stretch at grid coordinate k = i 2: group 2k for kk < 128,
    group 2k+1 from 128 on. -/
def grow (i : grid0.Coords) (kk : Fin 256) : Fin 32 :=
  ⟨2 * (i 2).val + kk.val / 128, by have h : (i 2).val < 16 := (i 2).isLt; have := kk.isLt; omega⟩

/-- The zero the body writes into the running sum at the first stretch. -/
theorem pay3_apply (j : S512x2048.Idx) : k0_pay3 (F := Ideal) j = 0 := by
  unfold k0_pay3
  rw [shapeCast_self]
  exact Ideal.ofBits_zero_f32

/-- The last stretch adds the bias row to every row of the running sum. -/
theorem pay2_apply (v68 : Vec Ideal S512x2048 .f32) (v69 : Vec Ideal S1x2048 .f32) (p : Fin 512) (q : Fin 2048) :
    k0_pay2 (F := Ideal) v68 v69 (ix2 p q) = v68 (ix2 p q) + v69 (ix2 (0 : Fin 1) q) := by
  unfold k0_pay2
  rw [addf_apply, broadcastTo_1b_ab_apply, shapeCast_self]

/-- A shift amount `4c` with `c < 8` is below the word width. -/
theorem shift_lt (c : Fin 8) : (IntOp.muli (BitVec.ofNat 32 c.val) 4#32).toNat < 32 := by
  have hc := c.isLt
  unfold IntOp.muli
  rw [BitVec.toNat_mul, BitVec.toNat_ofNat]
  show (c.val % 2 ^ 32 * 4) % 2 ^ 32 < 32
  omega

/-- The unpacked tile at row `kk`, column `q`: field `q % 8` of the packed word in column `q / 8`, as a real. -/
theorem pay4_apply (x1 : Vec Ideal S256x256 .i32) (kk : Fin 256) (q : Fin 2048) :
    k0_pay4 (F := Ideal) x1 (ix2 kk q)
      = nibR (x1 (ix2 kk (⟨q.val / 8, by have := q.isLt; omega⟩ : Fin 256))) ⟨q.val % 8, by omega⟩ := by
  have hq := q.isLt
  unfold k0_pay4
  rw [sitofp_apply]
  rw [shapeCast_apply _ _ (ix2 kk q)
    (ix3 kk (⟨q.val / 8, by omega⟩ : Fin 256) (⟨q.val % 8, by omega⟩ : Fin 8))
    (by rw [Shape.rowMajor_val_three, Shape.rowMajor_val_two]
        show (kk.val * 256 + q.val / 8) * 8 + q.val % 8 = kk.val * 2048 + q.val
        omega)]
  simp only [andi, shrsi, broadcast]
  rw [broadcastTo_apply _ _ (ix3 kk (⟨q.val / 8, by omega⟩ : Fin 256) (⟨q.val % 8, by omega⟩ : Fin 8))
    (ix3 kk (⟨q.val / 8, by omega⟩ : Fin 256) (0 : Fin 1))
    (fun ax => by match ax with | ⟨0, _⟩ => rfl | ⟨1, _⟩ => rfl | ⟨2, _⟩ => rfl)]
  rw [shapeCast_apply _ _ (ix3 kk (⟨q.val / 8, by omega⟩ : Fin 256) (0 : Fin 1)) (ix2 kk (⟨q.val / 8, by omega⟩ : Fin 256))
    (by rw [Shape.rowMajor_val_three, Shape.rowMajor_val_two]
        show kk.val * 256 + q.val / 8 = (kk.val * 256 + q.val / 8) * 1 + 0
        omega)]
  rw [broadcastTo_apply _ _ (ix3 kk (⟨q.val / 8, by omega⟩ : Fin 256) (⟨q.val % 8, by omega⟩ : Fin 8))
    (ix3 (0 : Fin 1) (0 : Fin 1) (⟨q.val % 8, by omega⟩ : Fin 8))
    (fun ax => by match ax with | ⟨0, _⟩ => rfl | ⟨1, _⟩ => rfl | ⟨2, _⟩ => rfl)]
  simp only [muli, broadcast]
  have hc : iota .tc S1x1x8 32 [2] iota_S1x1x8_d2_w32 (ix3 (0 : Fin 1) (0 : Fin 1) (⟨q.val % 8, by omega⟩ : Fin 8))
      = BitVec.ofNat 32 (⟨q.val % 8, by omega⟩ : Fin 8).val := iota_single_apply _ _ _ _ _ _
  rw [hc]
  unfold IntOp.shrsi
  rw [if_pos (shift_lt _)]
  rfl

/-- `arith.select` on the bit of a decidable proposition is the `if` on it. -/
theorem select_ofBool_decide {α : Type} (P : Prop) [Decidable P] (a b : α) :
    Scalar.select (BitVec.ofBool (decide P)) a b = if P then a else b := by
  unfold Scalar.select
  by_cases h : P <;> simp [h]

/-- Among 32 group rows and 16 stretches, the word of `g` is twice the word of `k` exactly when `g = 2k`. -/
theorem word_eq_two_mul (g k : Nat) (hg : g < 32) (hk : k < 16) :
    BitVec.ofNat 32 g = Scalar.muli 2#32 (BitVec.ofNat 32 k) ↔ g = 2 * k := by
  unfold Scalar.muli IntOp.muli
  rw [← BitVec.toNat_inj]
  simp only [BitVec.toNat_mul, BitVec.toNat_ofNat]
  omega

/-- … and twice the word of `k` plus one exactly when `g = 2k + 1`. -/
theorem word_eq_two_mul_add_one (g k : Nat) (hg : g < 32) (hk : k < 16) :
    BitVec.ofNat 32 g = Scalar.addi (Scalar.muli 2#32 (BitVec.ofNat 32 k)) 1#32 ↔ g = 2 * k + 1 := by
  unfold Scalar.addi IntOp.addi Scalar.muli IntOp.muli
  rw [← BitVec.toNat_inj]
  simp only [BitVec.toNat_add, BitVec.toNat_mul, BitVec.toNat_ofNat]
  omega

/-- The first mask marks group row `2k` at stretch `k`. -/
theorem pay6_apply (i : grid0.Coords) (g : Fin 32) (q : Fin 2048) :
    k0_pay6 i (ix2 g q) = BitVec.ofBool (decide (g.val = 2 * (i 2).val)) := by
  have hk : (i 2).val < 16 := (i 2).isLt
  have hg := g.isLt
  unfold k0_pay6
  simp only [cmpi, broadcast]
  rw [iota_single_apply]
  show BitVec.ofBool (BitVec.ofNat 32 g.val == Scalar.muli 2#32 (BitVec.ofNat 32 (i 2).val)) = _
  congr 1
  rw [Bool.eq_iff_iff, beq_iff_eq, decide_eq_true_eq]
  exact word_eq_two_mul _ _ hg hk

/-- The second mask marks group row `2k + 1`. -/
theorem pay7_apply (i : grid0.Coords) (g : Fin 32) (q : Fin 2048) :
    k0_pay7 i (ix2 g q) = BitVec.ofBool (decide (g.val = 2 * (i 2).val + 1)) := by
  have hk : (i 2).val < 16 := (i 2).isLt
  have hg := g.isLt
  unfold k0_pay7
  simp only [cmpi, broadcast]
  rw [iota_single_apply]
  show BitVec.ofBool (BitVec.ofNat 32 g.val == Scalar.addi (Scalar.muli 2#32 (BitVec.ofNat 32 (i 2).val)) 1#32) = _
  congr 1
  rw [Bool.eq_iff_iff, beq_iff_eq, decide_eq_true_eq]
  exact word_eq_two_mul_add_one _ _ hg hk

/-- A column sum over the 32 group rows of an array masked to one row `g0` (zero elsewhere) is that row's entry. -/
theorem colsum_select (m : IVec S32x2048 1) (x : FVec Ideal S32x2048 .f32) (g0 : Fin 32) (q : Fin 2048) (u : Fin 1)
    (hm : ∀ g : Fin 32, m (ix2 g q) = BitVec.ofBool (decide (g.val = g0.val))) :
    shapeCast S1x2048 (multiReduction (F := Ideal) .add [0] S2048
        (select m x (broadcast S32x2048 (Scalar.ofBits .f32 0x00000000#32))) 0x00000000#32
        reduces_S32x2048_S2048 (.inl rfl) rfl)
      shapeCasts_S2048_S1x2048 (ix2 u q) = x (ix2 g0 q) := by
  rw [shapeCast_a_1a_apply]
  refine (Ideal.multiReduction_add_single _ _ _ _ _ (ix1 q)).trans ?_
  have e : ∀ g : Fin 32, (reduces_S32x2048_S2048).lift (ix1 q) g = ix2 g q := fun g =>
    funext fun a => Fin.ext (by match a with | ⟨0, _⟩ => rfl | ⟨1, _⟩ => rfl)
  show ∑ g : Fin 32, select m x (broadcast S32x2048 (Scalar.ofBits .f32 0x00000000#32))
      ((reduces_S32x2048_S2048).lift (ix1 q) g) = _
  simp only [e, select_apply, hm, select_ofBool_decide, broadcast_apply]
  rw [Finset.sum_eq_single g0]
  · rw [if_pos rfl]
  · intro g _ hne
    rw [if_neg (fun h => hne (Fin.ext h))]
    exact Ideal.ofBits_zero_f32
  · intro h
    exact absurd (Finset.mem_univ _) h

/-- The cast of the zero-point-times-scale block to its own shape changes nothing. -/
theorem pay5_eq (x3 : Vec Ideal S32x2048 .f32) : k0_pay5 (F := Ideal) x3 = x3 := by
  unfold k0_pay5
  exact shapeCast_self _ _

/-- The first masked column sum of the scales: row `2k`. -/
theorem pay8_apply (i : grid0.Coords) (x2 : Vec Ideal S32x2048 .f32) (u : Fin 1) (q : Fin 2048) :
    k0_pay8 (F := Ideal) i x2 (ix2 u q)
      = x2 (ix2 (⟨2 * (i 2).val, by have h : (i 2).val < 16 := (i 2).isLt; omega⟩ : Fin 32) q) := by
  unfold k0_pay8
  exact colsum_select (k0_pay6 i) x2 _ q u (fun g => pay6_apply i g q)

/-- The second masked column sum of the scales: row `2k + 1`. -/
theorem pay9_apply (i : grid0.Coords) (x2 : Vec Ideal S32x2048 .f32) (u : Fin 1) (q : Fin 2048) :
    k0_pay9 (F := Ideal) i x2 (ix2 u q)
      = x2 (ix2 (⟨2 * (i 2).val + 1, by have h : (i 2).val < 16 := (i 2).isLt; omega⟩ : Fin 32) q) := by
  unfold k0_pay9
  exact colsum_select (k0_pay7 i) x2 _ q u (fun g => pay7_apply i g q)

/-- The first masked column sum of the zero points times scales: row `2k`. -/
theorem pay10_apply (i : grid0.Coords) (x3 : Vec Ideal S32x2048 .f32) (u : Fin 1) (q : Fin 2048) :
    k0_pay10 (F := Ideal) i x3 (ix2 u q)
      = x3 (ix2 (⟨2 * (i 2).val, by have h : (i 2).val < 16 := (i 2).isLt; omega⟩ : Fin 32) q) := by
  unfold k0_pay10
  rw [pay5_eq]
  exact colsum_select (k0_pay6 i) x3 _ q u (fun g => pay6_apply i g q)

/-- An integer comparison of two vectors at an index compares the elements. -/
theorem cmpi_apply {s : Shape} {w : Nat} (p : CmpIPredicate) (a b : IVec s w) (j : s.Idx) :
    cmpi p a b j = IntOp.cmpi p (a j) (b j) := rfl

/-- Row `kk` of a 256-row stretch lies in its second half exactly when its word, read signed, is at least 128. -/
theorem sge_128 (kk : Fin 256) :
    IntOp.cmpi .sge (BitVec.ofNat 32 kk.val) 128#32 = BitVec.ofBool (decide (128 ≤ kk.val)) := by
  have hk := kk.isLt
  show BitVec.ofBool ((128#32).sle (BitVec.ofNat 32 kk.val)) = _
  congr 1
  rw [Bool.eq_iff_iff, BitVec.sle_iff_toInt_le, decide_eq_true_eq,
    BitVec.toInt_eq_toNat_cond, BitVec.toInt_eq_toNat_cond]
  simp only [BitVec.toNat_ofNat]
  omega

/-- The row mask of the stretch: set on rows 128 to 255. -/
theorem half_apply (kk : Fin 256) (q : Fin 2048) :
    cmpi .sge (iota .tc S256x2048 32 [0] iota_S256x2048_d0_w32) (broadcast S256x2048 128#32) (ix2 kk q)
      = BitVec.ofBool (decide (128 ≤ kk.val)) := by
  rw [cmpi_apply, broadcast_apply, iota_single_apply]
  exact sge_128 kk

/-- A choice by the row mask between two rows, each broadcast down the 256 rows: the first row on rows 128 to 255, the
    second on rows 0 to 127. -/
theorem rowsel_apply (a b : FVec Ideal S1x2048 .f32) (kk : Fin 256) (q : Fin 2048) :
    select (cmpi .sge (iota .tc S256x2048 32 [0] iota_S256x2048_d0_w32) (broadcast S256x2048 128#32))
        (broadcastTo S256x2048 (shapeCast S1x2048 a shapeCasts_S1x2048_S1x2048) broadcasts_S1x2048_S256x2048)
        (broadcastTo S256x2048 (shapeCast S1x2048 b shapeCasts_S1x2048_S1x2048) broadcasts_S1x2048_S256x2048) (ix2 kk q)
      = if 128 ≤ kk.val then a (ix2 (0 : Fin 1) q) else b (ix2 (0 : Fin 1) q) := by
  rw [select_apply, half_apply, select_ofBool_decide, broadcastTo_1b_ab_apply, broadcastTo_1b_ab_apply,
    shapeCast_self, shapeCast_self]

/-- The group row of a row in the first half of the stretch. -/
theorem grow_lo (i : grid0.Coords) (kk : Fin 256) (h : ¬ 128 ≤ kk.val) :
    grow i kk = ⟨2 * (i 2).val, by have h : (i 2).val < 16 := (i 2).isLt; omega⟩ :=
  Fin.ext (by show 2 * (i 2).val + kk.val / 128 = 2 * (i 2).val; omega)

/-- The group row of a row in the second half of the stretch. -/
theorem grow_hi (i : grid0.Coords) (kk : Fin 256) (h : 128 ≤ kk.val) :
    grow i kk = ⟨2 * (i 2).val + 1, by have h : (i 2).val < 16 := (i 2).isLt; omega⟩ :=
  Fin.ext (by have := kk.isLt; show 2 * (i 2).val + kk.val / 128 = 2 * (i 2).val + 1; omega)

/-- The product's left operand index at output `j` and contraction index `c`: row `j 0` … -/
theorem lhs_pay1_0 (j : S512x2048.Idx) (c : dot_S512x256_S256x2048_S512x2048_1_0_0_1_n_n.contr.Idx) :
    (dot_S512x256_S256x2048_S512x2048_1_0_0_1_n_n.lhsIdx j c 0).val = (j 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
/-- … column `c`; -/
theorem lhs_pay1_1 (j : S512x2048.Idx) (c : dot_S512x256_S256x2048_S512x2048_1_0_0_1_n_n.contr.Idx) :
    (dot_S512x256_S256x2048_S512x2048_1_0_0_1_n_n.lhsIdx j c 1).val = (c ⟨0, by decide⟩).val :=
  dot_S512x256_S256x2048_S512x2048_1_0_0_1_n_n.lhsIdx_val_of_single rfl j c
/-- the right operand's: row `c` … -/
theorem rhs_pay1_0 (j : S512x2048.Idx) (c : dot_S512x256_S256x2048_S512x2048_1_0_0_1_n_n.contr.Idx) :
    (dot_S512x256_S256x2048_S512x2048_1_0_0_1_n_n.rhsIdx j c 0).val = (c ⟨0, by decide⟩).val :=
  dot_S512x256_S256x2048_S512x2048_1_0_0_1_n_n.rhsIdx_val_of_single rfl j c
/-- … column `j 1`. -/
theorem rhs_pay1_1 (j : S512x2048.Idx) (c : dot_S512x256_S256x2048_S512x2048_1_0_0_1_n_n.contr.Idx) :
    (dot_S512x256_S256x2048_S512x2048_1_0_0_1_n_n.rhsIdx j c 1).val = (j 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- One stretch's update of the running sum at `(p, q)`: the 256 products of the activations' row with the dequantised
    weights of column `q`, each weight its unpacked field times its group's scale minus its group's zero point times scale. -/
theorem pay1_apply (i : grid0.Coords) (x0 : Vec Ideal S512x256 .bf16) (x1 : Vec Ideal S256x256 .i32)
    (x2 x3 : Vec Ideal S32x2048 .f32) (acc : Vec Ideal S512x2048 .f32) (p : Fin 512) (q : Fin 2048) :
    k0_pay1 (F := Ideal) (k0_pay4 x1) (k0_pay5 x3) (k0_pay7 i) (k0_pay8 i x2) (k0_pay9 i x2) (k0_pay10 i x3)
        (Scalar.ofBits .f32 0x00000000#32) x0 acc (ix2 p q)
      = acc (ix2 p q) + ∑ kk : Fin 256, x0 (ix2 p kk)
          * (nibR (x1 (ix2 kk (⟨q.val / 8, by have := q.isLt; omega⟩ : Fin 256))) ⟨q.val % 8, by omega⟩
              * x2 (ix2 (grow i kk) q) - x3 (ix2 (grow i kk) q)) := by
  unfold k0_pay1
  rw [shapeCast_self, addf_apply]
  refine congrArg (acc (ix2 p q) + ·) ?_
  refine (Ideal.matmul_constant_zero_apply dot_S512x256_S256x2048_S512x2048_1_0_0_1_n_n none _ _ (ix2 p q)).trans ?_
  rw [← Equiv.sum_comp (contrEquiv1 dot_S512x256_S256x2048_S512x2048_1_0_0_1_n_n 256 rfl rfl).symm]
  refine Finset.sum_congr rfl fun kk _ => ?_
  have hk := contrEquiv1_symm_val dot_S512x256_S256x2048_S512x2048_1_0_0_1_n_n 256 rfl rfl kk
  have el : dot_S512x256_S256x2048_S512x2048_1_0_0_1_n_n.lhsIdx (ix2 p q) ((contrEquiv1 dot_S512x256_S256x2048_S512x2048_1_0_0_1_n_n 256 rfl rfl).symm kk) = ix2 p kk := funext fun a => Fin.ext (by
    match a with
    | ⟨0, _⟩ => exact lhs_pay1_0 _ _
    | ⟨1, _⟩ => exact (lhs_pay1_1 _ _).trans hk)
  have er : dot_S512x256_S256x2048_S512x2048_1_0_0_1_n_n.rhsIdx (ix2 p q) ((contrEquiv1 dot_S512x256_S256x2048_S512x2048_1_0_0_1_n_n 256 rfl rfl).symm kk) = ix2 kk q := funext fun a => Fin.ext (by
    match a with
    | ⟨0, _⟩ => exact (rhs_pay1_0 _ _).trans hk
    | ⟨1, _⟩ => exact rhs_pay1_1 _ _)
  rw [el, er, shapeCast_self x0]
  refine congrArg (x0 (ix2 p kk) * ·) ?_
  rw [truncf_apply, subf_apply, mulf_apply, rowsel_apply, rowsel_apply, pay4_apply, pay9_apply, pay8_apply,
    pay10_apply, pay5_eq,
    colsum_select (k0_pay7 i) x3 ⟨2 * (i 2).val + 1, by have h : (i 2).val < 16 := (i 2).isLt; omega⟩ q 0
      (fun g => pay7_apply i g q)]
  by_cases h : 128 ≤ kk.val
  · rw [if_pos h, if_pos h, grow_hi i kk h]
  · rw [if_neg h, if_neg h, grow_lo i kk h]

end Cert.KernelIdeal.PayIdx

end
-- ==== Proof.KIPieces.lean ====
/-
  What each control case leaves in the accumulator and in the output's staging buffer, as values: the stores each
  run met are whole-buffer stores, so the last one's payload is what the buffer holds. The accumulator after a
  first point is the first stretch's product added to zero; after any later point, the stretch's product added to
  what it held; the output block at a last point is that accumulator plus the bias row. Each is the body's own
  arithmetic (the payload terms) of the staging buffers' contents, whatever memrefs the body was called on.
-/
import proofs.«400274_j61847529063064_3_alg».proof.Proof.KIRunFirst
import proofs.«400274_j61847529063064_3_alg».proof.Proof.KIRunMiddle
import proofs.«400274_j61847529063064_3_alg».proof.Proof.KIRunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's accumulator update as one term of the staging buffers' contents at the point's coordinates. -/
abbrev stepTerm (i : grid0.Coords) (x0 : Vec F S512x256 .bf16) (x1 : Vec F S256x256 .i32) (x2 x3 : Vec F S32x2048 .f32)
    (acc : Vec F S512x2048 .f32) : Vec F S512x2048 .f32 :=
  k0_pay1 (k0_pay4 x1) (k0_pay5 x3) (k0_pay7 i) (k0_pay8 i x2) (k0_pay9 i x2) (k0_pay10 i x3) (Scalar.ofBits .f32 0x00000000#32) x0 acc

theorem zero_off : (![0, 0] : Fin 2 → Nat) = fun _ => 0 := funext fun a => by fin_cases a <;> rfl

/-! ## The first point of a run of sixteen -/

theorem coverFirst (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : condFirst i) (hc1 : ¬condLast i)
    (x0 : Vec F S512x256 .bf16) (x1 : Vec F S256x256 .i32) (x2 x3 : Vec F S32x2048 .f32) (y : S512x2048.Idx) :
    ∃ pc ∈ (runFirst c i arg3 harg3 arg4 harg4 arg5 harg5 arg6 harg6 arg7 harg7 arg8 harg8 arg9 harg9 hc0 hc1 x0 x1 x2 x3).1, y ∈ pc.1.set :=
  View.cover_of_tiledL (runFirst c i arg3 harg3 arg4 harg4 arg5 harg5 arg6 harg6 arg7 harg7 arg8 harg8 arg9 harg9 hc0 hc1 x0 x1 x2 x3).1 S512x2048.size (by sl_kernel_rfl) y

/-- What the first case leaves in the accumulator. -/
def accFirst (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : condFirst i) (hc1 : ¬condLast i)
    (x0 : Vec F S512x256 .bf16) (x1 : Vec F S256x256 .i32) (x2 x3 : Vec F S32x2048 .f32) : Vec F S512x2048 .f32 :=
  VS.read (Elt F) (VS.writes (Elt F) VS.junk (runFirst c i arg3 harg3 arg4 harg4 arg5 harg5 arg6 harg6 arg7 harg7 arg8 harg8 arg9 harg9 hc0 hc1 x0 x1 x2 x3).1)

/-- It is the update term over the zeroed accumulator. -/
theorem accFirst_eq (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : condFirst i) (hc1 : ¬condLast i)
    (x0 : Vec F S512x256 .bf16) (x1 : Vec F S256x256 .i32) (x2 x3 : Vec F S32x2048 .f32) :
    accFirst c i arg3 harg3 arg4 harg4 arg5 harg5 arg6 harg6 arg7 harg7 arg8 harg8 arg9 harg9 hc0 hc1 x0 x1 x2 x3 = stepTerm i x0 x1 x2 x3 (k0_pay3 (F := F)) := by
  unfold accFirst
  rw [View.read_writes_eq_canon _ _ _ (coverFirst c i arg3 harg3 arg4 harg4 arg5 harg5 arg6 harg6 arg7 harg7 arg8 harg8 arg9 harg9 hc0 hc1 x0 x1 x2 x3)]
  unfold runFirst; dsimp only; sl_unfold_words
  rw [View.canon_cons_unit_zero (S := S512x2048) zero_off]
  simp only [View.readAt_eq_ld, Memref.IsWhole.read_unread, View.ld_unit_zero (S := S512x256) zero_off,
    View.ld_unit_zero (S := S256x256) zero_off, View.ld_unit_zero (S := S32x2048) zero_off,
    View.ld_unit_zero (S := S1x2048) zero_off, View.ld_unit_zero (S := S512x2048) zero_off,
    View.readCov_unit_zero (S := S512x2048) _ zero_off]

/-! ## A middle point -/

theorem coverMiddle (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : ¬condLast i)
    (x0 : Vec F S512x256 .bf16) (x1 : Vec F S256x256 .i32) (x2 x3 : Vec F S32x2048 .f32) (xs : Vec F S512x2048 .f32) (y : S512x2048.Idx) :
    ∃ pc ∈ (runMiddle c i arg3 harg3 arg4 harg4 arg5 harg5 arg6 harg6 arg7 harg7 arg8 harg8 arg9 harg9 hc0 hc1 x0 x1 x2 x3 xs).1, y ∈ pc.1.set :=
  View.cover_of_tiledL (runMiddle c i arg3 harg3 arg4 harg4 arg5 harg5 arg6 harg6 arg7 harg7 arg8 harg8 arg9 harg9 hc0 hc1 x0 x1 x2 x3 xs).1 S512x2048.size (by sl_kernel_rfl) y

/-- What a middle case leaves in the accumulator. -/
def accMiddle (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : ¬condLast i)
    (x0 : Vec F S512x256 .bf16) (x1 : Vec F S256x256 .i32) (x2 x3 : Vec F S32x2048 .f32) (xs : Vec F S512x2048 .f32) : Vec F S512x2048 .f32 :=
  VS.read (Elt F) (VS.writes (Elt F) VS.junk (runMiddle c i arg3 harg3 arg4 harg4 arg5 harg5 arg6 harg6 arg7 harg7 arg8 harg8 arg9 harg9 hc0 hc1 x0 x1 x2 x3 xs).1)

/-- It is the update term over what the accumulator held. -/
theorem accMiddle_eq (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : ¬condLast i)
    (x0 : Vec F S512x256 .bf16) (x1 : Vec F S256x256 .i32) (x2 x3 : Vec F S32x2048 .f32) (xs : Vec F S512x2048 .f32) :
    accMiddle c i arg3 harg3 arg4 harg4 arg5 harg5 arg6 harg6 arg7 harg7 arg8 harg8 arg9 harg9 hc0 hc1 x0 x1 x2 x3 xs = stepTerm i x0 x1 x2 x3 xs := by
  unfold accMiddle
  rw [View.read_writes_eq_canon _ _ _ (coverMiddle c i arg3 harg3 arg4 harg4 arg5 harg5 arg6 harg6 arg7 harg7 arg8 harg8 arg9 harg9 hc0 hc1 x0 x1 x2 x3 xs)]
  unfold runMiddle; dsimp only; sl_unfold_words
  rw [View.canon_cons_unit_zero (S := S512x2048) zero_off]
  simp only [View.readAt_eq_ld, Memref.IsWhole.read_unread, View.ld_unit_zero (S := S512x256) zero_off,
    View.ld_unit_zero (S := S256x256) zero_off, View.ld_unit_zero (S := S32x2048) zero_off,
    View.ld_unit_zero (S := S1x2048) zero_off, View.ld_unit_zero (S := S512x2048) zero_off,
    View.readCov_unit_zero (S := S512x2048) _ zero_off]

/-! ## The last point of a run of sixteen -/

theorem coverLastAcc (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) (y : S512x2048.Idx) :
    ∃ pc ∈ (runLast c i arg3 harg3 arg4 harg4 arg5 harg5 arg6 harg6 arg7 harg7 arg8 harg8 arg9 harg9 hc0 hc1 x0 x1 x2 x3 x4 xs).2.1, y ∈ pc.1.set :=
  View.cover_of_tiledL (runLast c i arg3 harg3 arg4 harg4 arg5 harg5 arg6 harg6 arg7 harg7 arg8 harg8 arg9 harg9 hc0 hc1 x0 x1 x2 x3 x4 xs).2.1 S512x2048.size (by sl_kernel_rfl) y

theorem coverLastOut (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) (y : S512x2048.Idx) :
    ∃ pc ∈ (runLast c i arg3 harg3 arg4 harg4 arg5 harg5 arg6 harg6 arg7 harg7 arg8 harg8 arg9 harg9 hc0 hc1 x0 x1 x2 x3 x4 xs).1, y ∈ pc.1.set :=
  View.cover_of_tiledL (runLast c i arg3 harg3 arg4 harg4 arg5 harg5 arg6 harg6 arg7 harg7 arg8 harg8 arg9 harg9 hc0 hc1 x0 x1 x2 x3 x4 xs).1 S512x2048.size (by sl_kernel_rfl) y

/-- What the last case leaves in the accumulator, and in the output's staging buffer. -/
def accLast (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) : Vec F S512x2048 .f32 :=
  VS.read (Elt F) (VS.writes (Elt F) VS.junk (runLast c i arg3 harg3 arg4 harg4 arg5 harg5 arg6 harg6 arg7 harg7 arg8 harg8 arg9 harg9 hc0 hc1 x0 x1 x2 x3 x4 xs).2.1)
def outLast (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) : Vec F S512x2048 .f32 :=
  VO.read (Elt F) (VO.writes (Elt F) VO.junk (runLast c i arg3 harg3 arg4 harg4 arg5 harg5 arg6 harg6 arg7 harg7 arg8 harg8 arg9 harg9 hc0 hc1 x0 x1 x2 x3 x4 xs).1)

theorem accLast_eq (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) :
    accLast c i arg3 harg3 arg4 harg4 arg5 harg5 arg6 harg6 arg7 harg7 arg8 harg8 arg9 harg9 hc0 hc1 x0 x1 x2 x3 x4 xs = stepTerm i x0 x1 x2 x3 xs := by
  unfold accLast
  rw [View.read_writes_eq_canon _ _ _ (coverLastAcc c i arg3 harg3 arg4 harg4 arg5 harg5 arg6 harg6 arg7 harg7 arg8 harg8 arg9 harg9 hc0 hc1 x0 x1 x2 x3 x4 xs)]
  unfold runLast; dsimp only; sl_unfold_words
  rw [View.canon_cons_unit_zero (S := S512x2048) zero_off]
  simp only [View.readAt_eq_ld, Memref.IsWhole.read_unread, View.ld_unit_zero (S := S512x256) zero_off,
    View.ld_unit_zero (S := S256x256) zero_off, View.ld_unit_zero (S := S32x2048) zero_off,
    View.ld_unit_zero (S := S1x2048) zero_off, View.ld_unit_zero (S := S512x2048) zero_off,
    View.readCov_unit_zero (S := S512x2048) _ zero_off]

/-- The output block is the updated accumulator plus the bias row. -/
theorem outLast_eq (c : Dev nD) (i : grid0.Coords) (arg3 : Memref sig .tc .vmem S512x256 .bf16) (harg3 : arg3.IsWhole) (arg4 : Memref sig .tc .vmem S256x256 .i32) (harg4 : arg4.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬condFirst i) (hc1 : condLast i)
    (x0 : Vec F S512x256 .bf16) (x1 : Vec F S256x256 .i32) (x2 x3 : Vec F S32x2048 .f32) (x4 : Vec F S1x2048 .f32) (xs : Vec F S512x2048 .f32) :
    outLast c i arg3 harg3 arg4 harg4 arg5 harg5 arg6 harg6 arg7 harg7 arg8 harg8 arg9 harg9 hc0 hc1 x0 x1 x2 x3 x4 xs = k0_pay2 (stepTerm i x0 x1 x2 x3 xs) x4 := by
  unfold outLast
  rw [View.read_writes_eq_canon _ _ _ (coverLastOut c i arg3 harg3 arg4 harg4 arg5 harg5 arg6 harg6 arg7 harg7 arg8 harg8 arg9 harg9 hc0 hc1 x0 x1 x2 x3 x4 xs)]
  unfold runLast; dsimp only; sl_unfold_words
  rw [View.canon_cons_unit_zero (S := S512x2048) zero_off]
  simp only [View.readAt_eq_ld, Memref.IsWhole.read_unread, View.ld_unit_zero (S := S512x256) zero_off,
    View.ld_unit_zero (S := S256x256) zero_off, View.ld_unit_zero (S := S32x2048) zero_off,
    View.ld_unit_zero (S := S1x2048) zero_off, View.ld_unit_zero (S := S512x2048) zero_off,
    View.readCov_unit_zero (S := S512x2048) _ zero_off]

end Cert.KernelIdeal.Body

end
-- ==== Proof.KIIndex.lean ====
/-
  Where a point's blocks sit in the arrays. Point `t` of the (4, 6, 16) grid has row-block `t / 96`, column-block
  `t / 16 % 6` and contraction step `t % 16`. Entry `(p, q)` of its 512 × 2048 output block is entry
  `(512 · (t / 96) + p, 2048 · (t / 16 % 6) + q)` of the result, when that column exists: the sixth column-block
  overhangs the 11008 columns, and only `q < 768` is inside. The array indices are written as total functions
  (reduced modulo the extent), equal to the plain sums wherever the column is inside.
-/
import proofs.«400274_j61847529063064_3_alg».proof.Proof.Gen.KernelIdeal.Frame
import proofs.«400274_j61847529063064_3_alg».proof.Proof.Spec

noncomputable section

namespace Cert.KernelIdeal.Index

open Cert.KernelIdeal Cert.KernelIdeal.Gen Idealize.ShloMosaic Cert.QLin

/-- The grid coordinates of a point, in closed form. -/
theorem coords_val : ∀ t : Fin cfg0.N, (grid0.coords t 0).val = t.val / 96 ∧ (grid0.coords t 1).val = t.val / 16 % 6
    ∧ (grid0.coords t 2).val = t.val % 16 :=
  (by decide +kernel : ∀ t : Fin grid0.N, (grid0.coords t 0).val = t.val / 96 ∧ (grid0.coords t 1).val = t.val / 16 % 6
    ∧ (grid0.coords t 2).val = t.val % 16)

/-- The contraction step of a point. -/
def kAt (t : Fin cfg0.N) : Fin 16 := ⟨(grid0.coords t 2).val, (grid0.coords t 2).isLt⟩
/-- The result's row holding row `p` of the point's output block. -/
def rAt (t : Fin cfg0.N) (p : Fin 512) : Fin 2048 := ⟨(512 * (grid0.coords t 0).val + p.val) % 2048, Nat.mod_lt _ (by norm_num)⟩
/-- The result's column holding column `q` of the point's output block, when `ValidQ t q`. -/
def nAt (t : Fin cfg0.N) (q : Fin 2048) : Fin 11008 := ⟨(2048 * (grid0.coords t 1).val + q.val) % 11008, Nat.mod_lt _ (by norm_num)⟩
/-- Column `q` of the point's blocks lies inside the arrays. -/
def ValidQ (t : Fin cfg0.N) (q : Fin 2048) : Prop := 2048 * (grid0.coords t 1).val + q.val < 11008

theorem rAt_val (t : Fin cfg0.N) (p : Fin 512) : (rAt t p).val = 512 * (grid0.coords t 0).val + p.val := by
  have h : (grid0.coords t 0).val < 4 := (grid0.coords t 0).isLt
  have := p.isLt
  show (512 * (grid0.coords t 0).val + p.val) % 2048 = _
  exact Nat.mod_eq_of_lt (by omega)
theorem nAt_val (t : Fin cfg0.N) (q : Fin 2048) (h : ValidQ t q) : (nAt t q).val = 2048 * (grid0.coords t 1).val + q.val :=
  Nat.mod_eq_of_lt h

/-- A point that is not the first of its run of sixteen shares its row- and column-block with the point before, whose
    contraction step is one less. -/
theorem prev_coords (t : Fin cfg0.N) (h : t.val % 16 ≠ 0) :
    (grid0.coords ⟨t.val - 1, Nat.lt_of_le_of_lt (Nat.sub_le _ _) t.isLt⟩ 0).val = (grid0.coords t 0).val
    ∧ (grid0.coords ⟨t.val - 1, Nat.lt_of_le_of_lt (Nat.sub_le _ _) t.isLt⟩ 1).val = (grid0.coords t 1).val
    ∧ (grid0.coords ⟨t.val - 1, Nat.lt_of_le_of_lt (Nat.sub_le _ _) t.isLt⟩ 2).val + 1 = (grid0.coords t 2).val := by
  have h1 := coords_val t
  have h2 := coords_val ⟨t.val - 1, Nat.lt_of_le_of_lt (Nat.sub_le _ _) t.isLt⟩
  simp only at h2
  omega

end Cert.KernelIdeal.Index

end
-- ==== Proof.KIStep.lean ====
/-
  One accumulator update, read at an entry. If the staging buffers hold, at the entries the update reads for output
  entry (p, q), the arrays' entries for result entry (r, n) — the 256 contraction rows of stretch `kt`, the packed
  word of column n / 8, the scale and zero-point-times-scale rows of each row's group — then the updated
  accumulator at (p, q) is the old one plus that stretch's contribution to (r, n). Sixteen such updates from zero are
  the kernel's running sum.
-/
import proofs.«400274_j61847529063064_3_alg».proof.Proof.PayIdx
import proofs.«400274_j61847529063064_3_alg».proof.Proof.KIPieces
import proofs.«400274_j61847529063064_3_alg».proof.Proof.KIIndex

noncomputable section

open scoped BigOperators

namespace Cert.KernelIdeal.Exact

open Cert.KernelIdeal Cert.KernelIdeal.Gen Cert.KernelIdeal.PayIdx Cert.KernelIdeal.Index
open Idealize.ShloMosaic Idealize.ShloMosaic.ValueIdx Cert.QLin

theorem step_apply (i : grid0.Coords) (x0 : Vec Ideal S512x256 .bf16) (x1 : Vec Ideal S256x256 .i32)
    (x2 x3 : Vec Ideal S32x2048 .f32) (acc : Vec Ideal S512x2048 .f32)
    (X : AX) (QW : AQW) (QZ : AQZ) (SC : ASC) (r : Fin 2048) (n : Fin 11008) (p : Fin 512) (q : Fin 2048) (kt : Fin 16)
    (hk : (i 2).val = kt.val)
    (h0 : ∀ kk : Fin 256, x0 (ix2 p kk) = X (ix2 r (Kidx kt kk)))
    (h1 : ∀ kk : Fin 256, x1 (ix2 kk (⟨q.val / 8, by have := q.isLt; omega⟩ : Fin 256)) = QW (ix2 (Kidx kt kk) (col8 n)))
    (hl : lane8 n = ⟨q.val % 8, by omega⟩)
    (h2 : ∀ g : Fin 32, x2 (ix2 g q) = SC (ix2 g n))
    (h3 : ∀ g : Fin 32, x3 (ix2 g q) = zs QZ SC g n) :
    Body.stepTerm (F := Ideal) i x0 x1 x2 x3 acc (ix2 p q) = acc (ix2 p q) + stretch X QW QZ SC r n kt := by
  show k0_pay1 (F := Ideal) (k0_pay4 x1) (k0_pay5 x3) (k0_pay7 i) (k0_pay8 i x2) (k0_pay9 i x2) (k0_pay10 i x3)
      (Scalar.ofBits .f32 0x00000000#32) x0 acc (ix2 p q) = _
  rw [pay1_apply]
  unfold stretch
  refine congrArg (acc (ix2 p q) + ·) (Finset.sum_congr rfl fun kk _ => ?_)
  have hg : grow i kk = grp (Kidx kt kk) := Fin.ext (by
    show 2 * (i 2).val + kk.val / 128 = (256 * kt.val + kk.val) / 128
    rw [hk]; omega)
  rw [h0 kk, h1 kk, h2, h3, hg, ← hl]
  rfl

/-- The running sum one stretch further. -/
theorem accK_succ (X : AX) (QW : AQW) (QZ : AQZ) (SC : ASC) (r : Fin 2048) (n : Fin 11008) (k : ℕ) (h : k + 1 < 16) :
    accK X QW QZ SC r n (k + 1) = accK X QW QZ SC r n k + stretch X QW QZ SC r n ⟨k + 1, h⟩ := by
  show accK X QW QZ SC r n k + (if h' : k + 1 < 16 then stretch X QW QZ SC r n ⟨k + 1, h'⟩ else 0) = _
  rw [dif_pos h]

theorem accK_zero (X : AX) (QW : AQW) (QZ : AQZ) (SC : ASC) (r : Fin 2048) (n : Fin 11008) :
    accK X QW QZ SC r n 0 = 0 + stretch X QW QZ SC r n 0 := rfl

end Cert.KernelIdeal.Exact

end
-- ==== Proof.HostPre.lean ====
/-
  What the host operations in front of the kernel leave in the three arrays they write and the kernel then stages:
  the activations in the narrower float format (over the extended reals: unchanged), the zero points unpacked from
  their 4-bit fields, made real and multiplied by the scales, and the bias as a one-row matrix; each read at an index.
  Then each staged window's block at a grid point, read at an index of the block: the entry of the launched input
  (for the zero points, `zs` of the launched inputs) at block index times block size plus the index inside the block;
  the same for a staging buffer's contents on the coordinates a cut fetch moves; and, for the result's window, a
  whole-array function read through a block, which coordinates are moved, and that the written-back blocks cover the result.
-/
import proofs.«400274_j61847529063064_3_alg».proof.Proof.Gen.KernelIdeal.Frame
import proofs.«400274_j61847529063064_3_alg».proof.Proof.Spec
import proofs.«400274_j61847529063064_3_alg».proof.Proof.KIIndex
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostPre

open Cert.KernelIdeal Cert.KernelIdeal.Gen Idealize.ShloMosaic Idealize.ShloMosaic.TcCoe Idealize.ShloMosaic.ValueIdx Idealize.SL.Sem Cert.QLin

variable (m : (ℓ : Loc nD τ sig) → Buf (Elt Ideal) ℓ)

/-! ## The host's unpacking of a packed word array, read at an index -/

section Words

/-- The constant mask array reads 15 everywhere. -/
theorem mask_apply (i : S32x1376x8.Idx) :
    (broadcastInDim S32x1376x8 ![] bcast_S_S32x1376x8 (constantI S_ 32 15#32) : IVec S32x1376x8 32) i = 15#32 :=
  broadcastInDim_apply _ bcast_S_S32x1376x8 (constantI S_ 32 15#32) i ix0 (fun a => a.elim0)

/-- The array of shift amounts reads four times the field number (the last coordinate). -/
theorem amt_apply (g : Fin 32) (q : Fin 1376) (l : Fin 8) :
    (broadcastInDim S32x1376x8 ![0, 1, 2] bcast_S1x1x8_S32x1376x8_0_1_2
      (broadcastInDim S1x1x8 ![2] bcast_S8_S1x1x8_2
        (muli (iotaInDim S8 32 0) (broadcastInDim S8 ![] bcast_S_S8 (constantI S_ 32 4#32)))) : IVec S32x1376x8 32) (ix3 g q l)
      = BitVec.ofNat 32 l.val * 4#32 := by
  rw [broadcastInDim_apply _ bcast_S1x1x8_S32x1376x8_0_1_2 _ (ix3 g q l) (ix3 (0 : Fin 1) (0 : Fin 1) l) (fun a => match a with
      | ⟨0, _⟩ => by show 0 = if (1 : Nat) = 1 then 0 else g.val; rw [if_pos rfl]
      | ⟨1, _⟩ => by show 0 = if (1 : Nat) = 1 then 0 else q.val; rw [if_pos rfl]
      | ⟨2, _⟩ => by show l.val = if (8 : Nat) = 1 then 0 else l.val; rw [if_neg (by decide)])]
  rw [broadcastInDim_apply _ bcast_S8_S1x1x8_2 _ (ix3 (0 : Fin 1) (0 : Fin 1) l) (ix1 l) (fun a => match a with
      | ⟨0, _⟩ => by show l.val = if (8 : Nat) = 1 then 0 else l.val; rw [if_neg (by decide)])]
  show IntOp.muli (BitVec.ofNat 32 l.val) ((broadcastInDim S8 ![] bcast_S_S8 (constantI S_ 32 4#32) : IVec S8 32) (ix1 l)) = _
  rw [broadcastInDim_apply _ bcast_S_S8 (constantI S_ 32 4#32) (ix1 l) ix0 (fun a => a.elim0)]
  rfl

/-- A packed array broadcast along a new last axis of eight reads the packed word at the first two coordinates. -/
theorem spread_apply (x : S32x1376.Idx → BitVec 32) (g : Fin 32) (q : Fin 1376) (l : Fin 8) :
    (broadcastInDim S32x1376x8 ![0, 1, 2] bcast_S32x1376x1_S32x1376x8_0_1_2
      (broadcastInDim S32x1376x1 ![0, 1] bcast_S32x1376_S32x1376x1_0_1 x) : IVec S32x1376x8 32) (ix3 g q l) = x (ix2 g q) := by
  rw [broadcastInDim_apply _ bcast_S32x1376x1_S32x1376x8_0_1_2 _ (ix3 g q l) (ix3 g q (0 : Fin 1)) (fun a => match a with
      | ⟨0, _⟩ => by show g.val = if (32 : Nat) = 1 then 0 else g.val; rw [if_neg (by decide)]
      | ⟨1, _⟩ => by show q.val = if (1376 : Nat) = 1 then 0 else q.val; rw [if_neg (by decide)]
      | ⟨2, _⟩ => by show 0 = if (1 : Nat) = 1 then 0 else l.val; rw [if_pos rfl])]
  exact broadcastInDim_apply _ bcast_S32x1376_S32x1376x1_0_1 x (ix3 g q (0 : Fin 1)) (ix2 g q) (fun a => match a with
      | ⟨0, _⟩ => by show g.val = if (32 : Nat) = 1 then 0 else g.val; rw [if_neg (by decide)]
      | ⟨1, _⟩ => by show q.val = if (1376 : Nat) = 1 then 0 else q.val; rw [if_neg (by decide)])

/-- A shift by four times a field number is below the word width, so the host's arithmetic shift is the plain one. -/
theorem shrsi_field (w : BitVec 32) (l : Fin 8) :
    IntOp.shrsi .host w (BitVec.ofNat 32 l.val * 4#32) = w.sshiftRight' (BitVec.ofNat 32 l.val * 4#32) := by
  unfold IntOp.shrsi
  rw [if_pos]
  revert l; decide

/-- The unpacked array at `(g, q, l)` is field `l` of packed word `(g, q)`. -/
theorem unpack_apply (x : S32x1376.Idx → BitVec 32) (g : Fin 32) (q : Fin 1376) (l : Fin 8) :
    (andi (Host.shrsi
        (broadcastInDim S32x1376x8 ![0, 1, 2] bcast_S32x1376x1_S32x1376x8_0_1_2
          (broadcastInDim S32x1376x1 ![0, 1] bcast_S32x1376_S32x1376x1_0_1 x))
        (broadcastInDim S32x1376x8 ![0, 1, 2] bcast_S1x1x8_S32x1376x8_0_1_2
          (broadcastInDim S1x1x8 ![2] bcast_S8_S1x1x8_2
            (muli (iotaInDim S8 32 0) (broadcastInDim S8 ![] bcast_S_S8 (constantI S_ 32 4#32))))))
      (broadcastInDim S32x1376x8 ![] bcast_S_S32x1376x8 (constantI S_ 32 15#32)) : IVec S32x1376x8 32) (ix3 g q l)
      = nib (x (ix2 g q)) l := by
  show IntOp.andi (IntOp.shrsi .host
      ((broadcastInDim S32x1376x8 ![0, 1, 2] bcast_S32x1376x1_S32x1376x8_0_1_2
          (broadcastInDim S32x1376x1 ![0, 1] bcast_S32x1376_S32x1376x1_0_1 x) : IVec S32x1376x8 32) (ix3 g q l))
      ((broadcastInDim S32x1376x8 ![0, 1, 2] bcast_S1x1x8_S32x1376x8_0_1_2
          (broadcastInDim S1x1x8 ![2] bcast_S8_S1x1x8_2
            (muli (iotaInDim S8 32 0) (broadcastInDim S8 ![] bcast_S_S8 (constantI S_ 32 4#32)))) : IVec S32x1376x8 32) (ix3 g q l)))
      ((broadcastInDim S32x1376x8 ![] bcast_S_S32x1376x8 (constantI S_ 32 15#32) : IVec S32x1376x8 32) (ix3 g q l)) = _
  rw [spread_apply, amt_apply, mask_apply, shrsi_field]
  rfl

/-- The reshape [32, 1376, 8] → [32, 11008] reads `(g, n)` at `(g, n / 8, n % 8)`. -/
theorem flatten_apply {α : Type} (y : S32x1376x8.Idx → α) (g : Fin 32) (n : Fin 11008) :
    shapeCast S32x11008 y shapeCasts_S32x1376x8_S32x11008 (ix2 g n) = y (ix3 g (col8 n) (lane8 n)) := by
  refine shapeCast_apply y shapeCasts_S32x1376x8_S32x11008 (ix2 g n) (ix3 g (col8 n) (lane8 n)) ?_
  rw [Shape.rowMajor_val_three, Shape.rowMajor_val_two]
  show (g.val * 1376 + n.val / 8) * 8 + n.val % 8 = g.val * 11008 + n.val
  omega

/-- The reshape [11008] → [1, 11008] reads `(0, n)` at `n`. -/
theorem addRow_apply {α : Type} (y : S11008.Idx → α) (n : Fin 11008) :
    shapeCast S1x11008 y shapeCasts_S11008_S1x11008 (ix2 (0 : Fin 1) n) = y (ix1 n) := by
  refine shapeCast_apply y shapeCasts_S11008_S1x11008 (ix2 (0 : Fin 1) n) (ix1 n) ?_
  rw [Shape.rowMajor_val_one, Shape.rowMajor_val_two]
  show n.val = 0 * 11008 + n.val
  omega

end Words

/-! ## The three staged arrays the host operations write -/

/-- The activations converted to the narrower format: over the extended reals, unchanged. -/
theorem V_v13 (c : Dev nD) : (V m c main_v13 : S2048x4096.Idx → EReal) = m ((c : Thread nD τ).loc main_arg0) := by
  have e : @Eq (S2048x4096.Idx → EReal) (V m c main_v13)
      (truncf (F := Ideal) (s := S2048x4096) (φ := .f32) .bf16 (m ((c : Thread nD τ).loc main_arg0)) bitsLt_bf16_f32) := by
    dsimp only [Gen.V, Gen.hostOps0]; after_results
  rw [e]
  rfl

/-- Zero point times scale: the host's product array at `(g, n)` is `zs` of the packed zero points and the scales. -/
theorem V_v12_apply (c : Dev nD) (g : Fin 32) (n : Fin 11008) :
    (V m c main_v12 : S32x11008.Idx → EReal) (ix2 g n)
      = zs (m ((c : Thread nD τ).loc main_arg2)) (m ((c : Thread nD τ).loc main_arg3)) g n := by
  have e : @Eq (S32x11008.Idx → EReal) (V m c main_v12)
      (mulf (F := Ideal) (s := S32x11008) (φ := .f32) (sitofp .f32 (shapeCast S32x11008
          (andi (Host.shrsi
              (broadcastInDim S32x1376x8 ![0, 1, 2] bcast_S32x1376x1_S32x1376x8_0_1_2
                (broadcastInDim S32x1376x1 ![0, 1] bcast_S32x1376_S32x1376x1_0_1 (m ((c : Thread nD τ).loc main_arg2))))
              (broadcastInDim S32x1376x8 ![0, 1, 2] bcast_S1x1x8_S32x1376x8_0_1_2
                (broadcastInDim S1x1x8 ![2] bcast_S8_S1x1x8_2
                  (muli (iotaInDim S8 32 0) (broadcastInDim S8 ![] bcast_S_S8 (constantI S_ 32 4#32))))))
            (broadcastInDim S32x1376x8 ![] bcast_S_S32x1376x8 (constantI S_ 32 15#32)))
          shapeCasts_S32x1376x8_S32x11008))
        (m ((c : Thread nD τ).loc main_arg3))) := by
    dsimp only [Gen.V, Gen.hostOps0]; after_results; rfl
  rw [e, mulf_apply, sitofp_apply, flatten_apply, unpack_apply]
  rfl

/-- The bias as a one-row matrix reads the bias at the column. -/
theorem V_v14_apply (c : Dev nD) (n : Fin 11008) :
    (V m c main_v14 : S1x11008.Idx → EReal) (ix2 (0 : Fin 1) n) = m ((c : Thread nD τ).loc main_arg4) (ix1 n) := by
  have e : (V m c main_v14 : S1x11008.Idx → EReal)
      = shapeCast S1x11008 (m ((c : Thread nD τ).loc main_arg4)) shapeCasts_S11008_S1x11008 := by
    dsimp only [Gen.V, Gen.hostOps0]; after_results; rfl
  rw [e]
  exact addRow_apply _ n

/-! ## The windows' blocks read at an index

  Point `t` of the grid has coordinates `(ci, cj, ck) = (grid0.coords t 0, 1, 2)`. A block's element `y` sits in its array,
  on each axis, at the block index times the block size plus `y`'s coordinate; the block indices are
  `(ci, ck)` for the activations, `(ck, cj)` for the packed weights, `(0, cj)` for the scales, for zero point times scale
  and for the bias. A block cut at the array's end has fewer coordinates on the cut axis; the bounds below hold for it too. -/

section Blocks

/-- The word of a number below `2 ^ 32` is that number. -/
theorem toNat_small (n : Nat) (h : n < 2 ^ 32) : (BitVec.ofNat 32 n).toNat = n := by
  rw [BitVec.toNat_ofNat]; exact Nat.mod_eq_of_lt h

theorem c0_lt (t : Fin cfg0.N) : (grid0.coords t 0).val < 4 := (grid0.coords t 0).isLt
theorem c1_lt (t : Fin cfg0.N) : (grid0.coords t 1).val < 6 := (grid0.coords t 1).isLt
theorem c2_lt (t : Fin cfg0.N) : (grid0.coords t 2).val < 16 := (grid0.coords t 2).isLt

/-! ### The block indices -/

theorem index0_0 (t : Fin cfg0.N) : win0_0.index t 0 = (grid0.coords t 0).val := by
  show (BitVec.ofNat 32 (grid0.coords t 0).val).toNat = _
  exact toNat_small _ (by have := c0_lt t; omega)
theorem index0_1 (t : Fin cfg0.N) : win0_0.index t 1 = (grid0.coords t 2).val := by
  show (BitVec.ofNat 32 (grid0.coords t 2).val).toNat = _
  exact toNat_small _ (by have := c2_lt t; omega)
theorem index1_0 (t : Fin cfg0.N) : win0_1.index t 0 = (grid0.coords t 2).val := by
  show (BitVec.ofNat 32 (grid0.coords t 2).val).toNat = _
  exact toNat_small _ (by have := c2_lt t; omega)
theorem index1_1 (t : Fin cfg0.N) : win0_1.index t 1 = (grid0.coords t 1).val := by
  show (BitVec.ofNat 32 (grid0.coords t 1).val).toNat = _
  exact toNat_small _ (by have := c1_lt t; omega)
theorem index2_0 (t : Fin cfg0.N) : win0_2.index t 0 = 0 := rfl
theorem index2_1 (t : Fin cfg0.N) : win0_2.index t 1 = (grid0.coords t 1).val := by
  show (BitVec.ofNat 32 (grid0.coords t 1).val).toNat = _
  exact toNat_small _ (by have := c1_lt t; omega)
theorem index3_0 (t : Fin cfg0.N) : win0_3.index t 0 = 0 := rfl
theorem index3_1 (t : Fin cfg0.N) : win0_3.index t 1 = (grid0.coords t 1).val := by
  show (BitVec.ofNat 32 (grid0.coords t 1).val).toNat = _
  exact toNat_small _ (by have := c1_lt t; omega)
theorem index4_0 (t : Fin cfg0.N) : win0_4.index t 0 = 0 := rfl
theorem index4_1 (t : Fin cfg0.N) : win0_4.index t 1 = (grid0.coords t 1).val := by
  show (BitVec.ofNat 32 (grid0.coords t 1).val).toNat = _
  exact toNat_small _ (by have := c1_lt t; omega)

/-! ### Where a block's element sits: inside the array -/

theorem blk0_row_lt (t : Fin cfg0.N) (y : ((cfg0.win 0).xblock (cfg0.grid.coords t)).Idx) :
    512 * (grid0.coords t 0).val + (y 0).val < 2048 := by
  have h : ((win0_0.rect t).emb y 0).val < 2048 := ((win0_0.rect t).emb y 0).isLt
  have e : ((win0_0.rect t).emb y 0).val = win0_0.index t 0 * 512 + (y 0).val := win0_0.rect_emb_val t y 0
  rw [e, index0_0] at h; omega
theorem blk0_col_lt (t : Fin cfg0.N) (y : ((cfg0.win 0).xblock (cfg0.grid.coords t)).Idx) :
    256 * (grid0.coords t 2).val + (y 1).val < 4096 := by
  have h : ((win0_0.rect t).emb y 1).val < 4096 := ((win0_0.rect t).emb y 1).isLt
  have e : ((win0_0.rect t).emb y 1).val = win0_0.index t 1 * 256 + (y 1).val := win0_0.rect_emb_val t y 1
  rw [e, index0_1] at h; omega
theorem blk1_row_lt (t : Fin cfg0.N) (y : ((cfg0.win 1).xblock (cfg0.grid.coords t)).Idx) :
    256 * (grid0.coords t 2).val + (y 0).val < 4096 := by
  have h : ((win0_1.rect t).emb y 0).val < 4096 := ((win0_1.rect t).emb y 0).isLt
  have e : ((win0_1.rect t).emb y 0).val = win0_1.index t 0 * 256 + (y 0).val := win0_1.rect_emb_val t y 0
  rw [e, index1_0] at h; omega
theorem blk1_col_lt (t : Fin cfg0.N) (y : ((cfg0.win 1).xblock (cfg0.grid.coords t)).Idx) :
    256 * (grid0.coords t 1).val + (y 1).val < 1376 := by
  have h : ((win0_1.rect t).emb y 1).val < 1376 := ((win0_1.rect t).emb y 1).isLt
  have e : ((win0_1.rect t).emb y 1).val = win0_1.index t 1 * 256 + (y 1).val := win0_1.rect_emb_val t y 1
  rw [e, index1_1] at h; omega
theorem blk2_row_lt (t : Fin cfg0.N) (y : ((cfg0.win 2).xblock (cfg0.grid.coords t)).Idx) : (y 0).val < 32 := by
  have h : ((win0_2.rect t).emb y 0).val < 32 := ((win0_2.rect t).emb y 0).isLt
  have e : ((win0_2.rect t).emb y 0).val = win0_2.index t 0 * 32 + (y 0).val := win0_2.rect_emb_val t y 0
  rw [e, index2_0] at h; omega
theorem blk2_col_lt (t : Fin cfg0.N) (y : ((cfg0.win 2).xblock (cfg0.grid.coords t)).Idx) :
    2048 * (grid0.coords t 1).val + (y 1).val < 11008 := by
  have h : ((win0_2.rect t).emb y 1).val < 11008 := ((win0_2.rect t).emb y 1).isLt
  have e : ((win0_2.rect t).emb y 1).val = win0_2.index t 1 * 2048 + (y 1).val := win0_2.rect_emb_val t y 1
  rw [e, index2_1] at h; omega
theorem blk3_row_lt (t : Fin cfg0.N) (y : ((cfg0.win 3).xblock (cfg0.grid.coords t)).Idx) : (y 0).val < 32 := by
  have h : ((win0_3.rect t).emb y 0).val < 32 := ((win0_3.rect t).emb y 0).isLt
  have e : ((win0_3.rect t).emb y 0).val = win0_3.index t 0 * 32 + (y 0).val := win0_3.rect_emb_val t y 0
  rw [e, index3_0] at h; omega
theorem blk3_col_lt (t : Fin cfg0.N) (y : ((cfg0.win 3).xblock (cfg0.grid.coords t)).Idx) :
    2048 * (grid0.coords t 1).val + (y 1).val < 11008 := by
  have h : ((win0_3.rect t).emb y 1).val < 11008 := ((win0_3.rect t).emb y 1).isLt
  have e : ((win0_3.rect t).emb y 1).val = win0_3.index t 1 * 2048 + (y 1).val := win0_3.rect_emb_val t y 1
  rw [e, index3_1] at h; omega
theorem blk4_col_lt (t : Fin cfg0.N) (y : ((cfg0.win 4).xblock (cfg0.grid.coords t)).Idx) :
    2048 * (grid0.coords t 1).val + (y 1).val < 11008 := by
  have h : ((win0_4.rect t).emb y 1).val < 11008 := ((win0_4.rect t).emb y 1).isLt
  have e : ((win0_4.rect t).emb y 1).val = win0_4.index t 1 * 2048 + (y 1).val := win0_4.rect_emb_val t y 1
  rw [e, index4_1] at h; omega

/-! ### The blocks at an index -/

/-- The activations' block: rows `512 ci …`, columns `256 ck …` of the activations as launched. -/
theorem iblk0_apply (c : Dev nD) (t : Fin cfg0.N) (y : ((cfg0.win 0).xblock (cfg0.grid.coords t)).Idx)
    (r : Fin 2048) (k : Fin 4096)
    (hr : r.val = 512 * (grid0.coords t 0).val + (y 0).val) (hk : k.val = 256 * (grid0.coords t 2).val + (y 1).val) :
    (iblk m c 0 t y : EReal) = m ((c : Thread nD τ).loc main_arg0) (ix2 r k) := by
  unfold iblk
  rw [View.read_apply]
  show (V m c main_v13 : S2048x4096.Idx → EReal) _ = m (c.tc.loc main_arg0) _
  rw [V_v13]
  refine congrArg _ (funext fun a => Fin.ext ?_)
  match a with
  | ⟨0, _⟩ => show win0_0.index t 0 * 512 + 1 * (y 0).val = r.val; rw [index0_0, hr]; omega
  | ⟨1, _⟩ => show win0_0.index t 1 * 256 + 1 * (y 1).val = k.val; rw [index0_1, hk]; omega

/-- The packed weights' block: rows `256 ck …`, packed columns `256 cj …` of the packed weights as launched. -/
theorem iblk1_apply (c : Dev nD) (t : Fin cfg0.N) (y : ((cfg0.win 1).xblock (cfg0.grid.coords t)).Idx)
    (K : Fin 4096) (q : Fin 1376)
    (hK : K.val = 256 * (grid0.coords t 2).val + (y 0).val) (hq : q.val = 256 * (grid0.coords t 1).val + (y 1).val) :
    (iblk m c 1 t y : BitVec 32) = m ((c : Thread nD τ).loc main_arg1) (ix2 K q) := by
  unfold iblk
  rw [View.read_apply]
  show V m c main_arg1 _ = m (c.tc.loc main_arg1) _
  rw [V_main_arg1]
  refine congrArg _ (funext fun a => Fin.ext ?_)
  match a with
  | ⟨0, _⟩ => show win0_1.index t 0 * 256 + 1 * (y 0).val = K.val; rw [index1_0, hK]; omega
  | ⟨1, _⟩ => show win0_1.index t 1 * 256 + 1 * (y 1).val = q.val; rw [index1_1, hq]; omega

/-- The scales' block: all groups, columns `2048 cj …` of the scales as launched. -/
theorem iblk2_apply (c : Dev nD) (t : Fin cfg0.N) (y : ((cfg0.win 2).xblock (cfg0.grid.coords t)).Idx)
    (g : Fin 32) (n : Fin 11008)
    (hg : g.val = (y 0).val) (hn : n.val = 2048 * (grid0.coords t 1).val + (y 1).val) :
    (iblk m c 2 t y : EReal) = m ((c : Thread nD τ).loc main_arg3) (ix2 g n) := by
  unfold iblk
  rw [View.read_apply]
  show V m c main_arg3 _ = m (c.tc.loc main_arg3) _
  rw [V_main_arg3]
  refine congrArg _ (funext fun a => Fin.ext ?_)
  match a with
  | ⟨0, _⟩ => show win0_2.index t 0 * 32 + 1 * (y 0).val = g.val; rw [index2_0, hg]; omega
  | ⟨1, _⟩ => show win0_2.index t 1 * 2048 + 1 * (y 1).val = n.val; rw [index2_1, hn]; omega

/-- The block of zero point times scale: all groups, columns `2048 cj …`, each entry `zs` of the inputs as launched. -/
theorem iblk3_apply (c : Dev nD) (t : Fin cfg0.N) (y : ((cfg0.win 3).xblock (cfg0.grid.coords t)).Idx)
    (g : Fin 32) (n : Fin 11008)
    (hg : g.val = (y 0).val) (hn : n.val = 2048 * (grid0.coords t 1).val + (y 1).val) :
    (iblk m c 3 t y : EReal) = zs (m ((c : Thread nD τ).loc main_arg2)) (m ((c : Thread nD τ).loc main_arg3)) g n := by
  unfold iblk
  rw [View.read_apply, ← V_v12_apply m c g n]
  show (V m c main_v12 : S32x11008.Idx → EReal) _ = (V m c main_v12 : S32x11008.Idx → EReal) _
  refine congrArg _ (funext fun a => Fin.ext ?_)
  match a with
  | ⟨0, _⟩ => show win0_3.index t 0 * 32 + 1 * (y 0).val = g.val; rw [index3_0, hg]; omega
  | ⟨1, _⟩ => show win0_3.index t 1 * 2048 + 1 * (y 1).val = n.val; rw [index3_1, hn]; omega

/-- The bias's block: columns `2048 cj …` of the bias as launched. -/
theorem iblk4_apply (c : Dev nD) (t : Fin cfg0.N) (y : ((cfg0.win 4).xblock (cfg0.grid.coords t)).Idx)
    (n : Fin 11008) (hn : n.val = 2048 * (grid0.coords t 1).val + (y 1).val) :
    (iblk m c 4 t y : EReal) = m ((c : Thread nD τ).loc main_arg4) (ix1 n) := by
  unfold iblk
  rw [View.read_apply, ← V_v14_apply m c n]
  show (V m c main_v14 : S1x11008.Idx → EReal) _ = (V m c main_v14 : S1x11008.Idx → EReal) _
  refine congrArg _ (funext fun a => Fin.ext ?_)
  match a with
  | ⟨0, _⟩ => show win0_4.index t 0 * 1 + 1 * (y 0).val = 0
              have h : (y 0).val < 1 := (y 0).isLt
              rw [index4_0]; omega
  | ⟨1, _⟩ => show win0_4.index t 1 * 2048 + 1 * (y 1).val = n.val; rw [index4_1, hn]; omega

/-! ### The same, with the array index written out -/

theorem iblk0_eq (c : Dev nD) (t : Fin cfg0.N) (y : ((cfg0.win 0).xblock (cfg0.grid.coords t)).Idx) :
    (iblk m c 0 t y : EReal) = m ((c : Thread nD τ).loc main_arg0)
      (ix2 (⟨512 * (grid0.coords t 0).val + (y 0).val, blk0_row_lt t y⟩ : Fin 2048)
        (⟨256 * (grid0.coords t 2).val + (y 1).val, blk0_col_lt t y⟩ : Fin 4096)) :=
  iblk0_apply m c t y _ _ rfl rfl
theorem iblk1_eq (c : Dev nD) (t : Fin cfg0.N) (y : ((cfg0.win 1).xblock (cfg0.grid.coords t)).Idx) :
    (iblk m c 1 t y : BitVec 32) = m ((c : Thread nD τ).loc main_arg1)
      (ix2 (⟨256 * (grid0.coords t 2).val + (y 0).val, blk1_row_lt t y⟩ : Fin 4096)
        (⟨256 * (grid0.coords t 1).val + (y 1).val, blk1_col_lt t y⟩ : Fin 1376)) :=
  iblk1_apply m c t y _ _ rfl rfl
theorem iblk2_eq (c : Dev nD) (t : Fin cfg0.N) (y : ((cfg0.win 2).xblock (cfg0.grid.coords t)).Idx) :
    (iblk m c 2 t y : EReal) = m ((c : Thread nD τ).loc main_arg3)
      (ix2 (⟨(y 0).val, blk2_row_lt t y⟩ : Fin 32)
        (⟨2048 * (grid0.coords t 1).val + (y 1).val, blk2_col_lt t y⟩ : Fin 11008)) :=
  iblk2_apply m c t y _ _ rfl rfl
theorem iblk3_eq (c : Dev nD) (t : Fin cfg0.N) (y : ((cfg0.win 3).xblock (cfg0.grid.coords t)).Idx) :
    (iblk m c 3 t y : EReal) = zs (m ((c : Thread nD τ).loc main_arg2)) (m ((c : Thread nD τ).loc main_arg3))
      (⟨(y 0).val, blk3_row_lt t y⟩ : Fin 32)
      (⟨2048 * (grid0.coords t 1).val + (y 1).val, blk3_col_lt t y⟩ : Fin 11008) :=
  iblk3_apply m c t y _ _ rfl rfl
theorem iblk4_eq (c : Dev nD) (t : Fin cfg0.N) (y : ((cfg0.win 4).xblock (cfg0.grid.coords t)).Idx) :
    (iblk m c 4 t y : EReal) = m ((c : Thread nD τ).loc main_arg4)
      (ix1 (⟨2048 * (grid0.coords t 1).val + (y 1).val, blk4_col_lt t y⟩ : Fin 11008)) :=
  iblk4_apply m c t y _ rfl

end Blocks

/-! ## The staged blocks as the kernel body finds them

  A staging buffer holds its window's block on the coordinates the fetch moved and anything elsewhere. Column `q` of a
  point's blocks is moved exactly when it lies inside the array (`ValidQ`); there the buffer's entry is the entry of the
  launched input at the point's row, group or column. -/

section Staged

open Cert.KernelIdeal.Index

/-- A coordinate is among those a (possibly cut) transfer moves iff it is in the block and, placed in the array, inside it. -/
theorem lt_extent_iff (ix k d x : Nat) : x < (Pipeline.Clip.of ix k d).extent k ↔ x < k ∧ ix * k + x < d := by
  unfold Pipeline.Clip.of
  split
  · next h => rw [Nat.succ_mul] at h; show x < k ↔ _; omega
  · next h => rw [Nat.succ_mul] at h; show x < d - ix * k ↔ _; omega

/-- A filled block at an index the transfer moves is the fetched block there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-- The column of the result that column `q` of a point's blocks is, split into packed column and field. -/
theorem lane8_nAt (t : Fin cfg0.N) (q : Fin 2048) (h : ValidQ t q) : lane8 (nAt t q) = ⟨q.val % 8, by omega⟩ :=
  Fin.ext (by show (nAt t q).val % 8 = q.val % 8; rw [nAt_val t q h]; omega)
theorem col8_nAt_val (t : Fin cfg0.N) (q : Fin 2048) (h : ValidQ t q) :
    (col8 (nAt t q)).val = 256 * (grid0.coords t 1).val + q.val / 8 := by
  show (nAt t q).val / 8 = _; rw [nAt_val t q h]; omega

/-- The activations' staged block (never cut). -/
theorem staged0 (c : Dev nD) (t : Fin cfg0.N) (p : Fin 512) (kk : Fin 256) :
    (iblk m c 0 t (ix2 p kk) : EReal) = m ((c : Thread nD τ).loc main_arg0) (ix2 (rAt t p) (Kidx (kAt t) kk)) :=
  iblk0_apply m c t (ix2 p kk) _ _ (rAt_val t p) rfl

/-- The packed weights' staged block at the packed column of a column inside the array. -/
theorem staged1 (c : Dev nD) (t : Fin cfg0.N) (d : S256x256.Idx → BitVec 32) (kk : Fin 256) (q : Fin 2048) (hq : ValidQ t q) :
    (win0 1).fill (grid0.coords t) d (iblk m c 1 t) (ix2 kk (⟨q.val / 8, by omega⟩ : Fin 256))
      = m ((c : Thread nD τ).loc main_arg1) (ix2 (Kidx (kAt t) kk) (col8 (nAt t q))) := by
  have hx : ∀ a, ((ix2 kk (⟨q.val / 8, by omega⟩ : Fin 256) : (win0 1).block.Idx) a).val < (win0 1).xsize (grid0.coords t) a :=
    fun a => match a with
    | ⟨0, _⟩ => by
        show kk.val < (Pipeline.Clip.of (win0_1.index t 0) 256 4096).extent 256
        rw [lt_extent_iff, index1_0]; have := c2_lt t; omega
    | ⟨1, _⟩ => by
        show q.val / 8 < (Pipeline.Clip.of (win0_1.index t 1) 256 1376).extent 256
        rw [lt_extent_iff, index1_1]; unfold ValidQ at hq; omega
  rw [fill_apply_of_lt (win0 1) (grid0.coords t) d (iblk m c 1 t) _ hx]
  exact iblk1_apply m c t _ _ _ rfl (col8_nAt_val t q hq)

/-- The scales' staged block at a column inside the array. -/
theorem staged2 (c : Dev nD) (t : Fin cfg0.N) (d : S32x2048.Idx → EReal) (g : Fin 32) (q : Fin 2048) (hq : ValidQ t q) :
    (win0 2).fill (grid0.coords t) d (iblk m c 2 t) (ix2 g q)
      = m ((c : Thread nD τ).loc main_arg3) (ix2 g (nAt t q)) := by
  have hx : ∀ a, ((ix2 g q : (win0 2).block.Idx) a).val < (win0 2).xsize (grid0.coords t) a :=
    fun a => match a with
    | ⟨0, _⟩ => by
        show g.val < (Pipeline.Clip.of (win0_2.index t 0) 32 32).extent 32
        rw [lt_extent_iff, index2_0]; omega
    | ⟨1, _⟩ => by
        show q.val < (Pipeline.Clip.of (win0_2.index t 1) 2048 11008).extent 2048
        rw [lt_extent_iff, index2_1]; unfold ValidQ at hq; omega
  rw [fill_apply_of_lt (win0 2) (grid0.coords t) d (iblk m c 2 t) _ hx]
  exact iblk2_apply m c t _ _ _ rfl (nAt_val t q hq)

/-- The staged block of zero point times scale at a column inside the array. -/
theorem staged3 (c : Dev nD) (t : Fin cfg0.N) (d : S32x2048.Idx → EReal) (g : Fin 32) (q : Fin 2048) (hq : ValidQ t q) :
    (win0 3).fill (grid0.coords t) d (iblk m c 3 t) (ix2 g q)
      = zs (m ((c : Thread nD τ).loc main_arg2)) (m ((c : Thread nD τ).loc main_arg3)) g (nAt t q) := by
  have hx : ∀ a, ((ix2 g q : (win0 3).block.Idx) a).val < (win0 3).xsize (grid0.coords t) a :=
    fun a => match a with
    | ⟨0, _⟩ => by
        show g.val < (Pipeline.Clip.of (win0_3.index t 0) 32 32).extent 32
        rw [lt_extent_iff, index3_0]; omega
    | ⟨1, _⟩ => by
        show q.val < (Pipeline.Clip.of (win0_3.index t 1) 2048 11008).extent 2048
        rw [lt_extent_iff, index3_1]; unfold ValidQ at hq; omega
  rw [fill_apply_of_lt (win0 3) (grid0.coords t) d (iblk m c 3 t) _ hx]
  exact iblk3_apply m c t _ _ _ rfl (nAt_val t q hq)

/-- The bias's staged block at a column inside the array. -/
theorem staged4 (c : Dev nD) (t : Fin cfg0.N) (d : S1x2048.Idx → EReal) (q : Fin 2048) (hq : ValidQ t q) :
    (win0 4).fill (grid0.coords t) d (iblk m c 4 t) (ix2 (0 : Fin 1) q)
      = m ((c : Thread nD τ).loc main_arg4) (ix1 (nAt t q)) := by
  have hx : ∀ a, ((ix2 (0 : Fin 1) q : (win0 4).block.Idx) a).val < (win0 4).xsize (grid0.coords t) a :=
    fun a => match a with
    | ⟨0, _⟩ => by
        show 0 < (Pipeline.Clip.of (win0_4.index t 0) 1 1).extent 1
        rw [lt_extent_iff, index4_0]; omega
    | ⟨1, _⟩ => by
        show q.val < (Pipeline.Clip.of (win0_4.index t 1) 2048 11008).extent 2048
        rw [lt_extent_iff, index4_1]; unfold ValidQ at hq; omega
  rw [fill_apply_of_lt (win0 4) (grid0.coords t) d (iblk m c 4 t) _ hx]
  exact iblk4_apply m c t _ _ (nAt_val t q hq)

end Staged

/-! ## The result's window

  Its block at a point with coordinates `(ci, cj, ·)` is rows `512 ci …`, columns `2048 cj …` of the result, cut at the
  result's last column; the points that write it back are the last of each run of sixteen, and their blocks cover the
  result. -/

section Result

open Cert.KernelIdeal.Index

theorem index5_0 (t : Fin cfg0.N) : win0_5.index t 0 = (grid0.coords t 0).val := by
  show (BitVec.ofNat 32 (grid0.coords t 0).val).toNat = _
  exact toNat_small _ (by have := c0_lt t; omega)
theorem index5_1 (t : Fin cfg0.N) : win0_5.index t 1 = (grid0.coords t 1).val := by
  show (BitVec.ofNat 32 (grid0.coords t 1).val).toNat = _
  exact toNat_small _ (by have := c1_lt t; omega)

theorem blk5_row_lt (t : Fin cfg0.N) (y : ((cfg0.win 5).xblock (cfg0.grid.coords t)).Idx) :
    512 * (grid0.coords t 0).val + (y 0).val < 2048 := by
  have h : ((win0_5.rect t).emb y 0).val < 2048 := ((win0_5.rect t).emb y 0).isLt
  have e : ((win0_5.rect t).emb y 0).val = win0_5.index t 0 * 512 + (y 0).val := win0_5.rect_emb_val t y 0
  rw [e, index5_0] at h; omega
theorem blk5_col_lt (t : Fin cfg0.N) (y : ((cfg0.win 5).xblock (cfg0.grid.coords t)).Idx) :
    2048 * (grid0.coords t 1).val + (y 1).val < 11008 := by
  have h : ((win0_5.rect t).emb y 1).val < 11008 := ((win0_5.rect t).emb y 1).isLt
  have e : ((win0_5.rect t).emb y 1).val = win0_5.index t 1 * 2048 + (y 1).val := win0_5.rect_emb_val t y 1
  rw [e, index5_1] at h; omega

/-- An array coordinate lies in a (possibly cut) block's part of the array iff it lies in the block and in the array. -/
theorem mem_extent_iff (ix k d x : Nat) :
    (ix * k ≤ x ∧ x < ix * k + (Pipeline.Clip.of ix k d).extent k) ↔ (ix * k ≤ x ∧ x < ix * k + k ∧ x < d) := by
  unfold Pipeline.Clip.of
  split
  · next h => rw [Nat.succ_mul] at h; show (_ ∧ x < ix * k + k) ↔ _; omega
  · next h => rw [Nat.succ_mul] at h; show (_ ∧ x < ix * k + (d - ix * k)) ↔ _; omega

/-- A whole-array function read through the result's block is its restriction to the block's rows and columns. -/
theorem cut5_eq (t : Fin cfg0.N) (G : S2048x11008.Idx → EReal) :
    (win0 5).cut (grid0.coords t) (fun j : S512x2048.Idx => G (ix2 (rAt t (j 0)) (nAt t (j 1))))
      = ((cfg0.win 5).blk t).view.read (Elt Ideal) G := by
  funext y
  rw [View.read_apply]
  show G _ = G _
  refine congrArg G (funext fun a => Fin.ext ?_)
  match a with
  | ⟨0, _⟩ =>
    show (rAt t _).val = win0_5.index t 0 * 512 + 1 * (y 0).val
    refine (rAt_val t _).trans ?_
    rw [index5_0]
    show 512 * (grid0.coords t 0).val + (y 0).val = _
    omega
  | ⟨1, _⟩ =>
    show (nAt t _).val = win0_5.index t 1 * 2048 + 1 * (y 1).val
    have hv : ValidQ t ((win0 5).xinj (grid0.coords t) y 1) := blk5_col_lt t y
    refine (nAt_val t _ hv).trans ?_
    rw [index5_1]
    show 2048 * (grid0.coords t 1).val + (y 1).val = _
    omega

/-- Every entry of the result lies in the block of a point that writes it back. -/
theorem cover5 (i : S2048x11008.Idx) :
    ∃ t : Fin cfg0.N, (cfg0.win 5).flush t = true ∧ i ∈ ((cfg0.win 5).blk t).view.set := by
  have h0 : (i 0).val < 2048 := (i 0).isLt
  have h1 : (i 1).val < 11008 := (i 1).isLt
  have hT : 96 * ((i 0).val / 512) + 16 * ((i 1).val / 2048) + 15 < cfg0.N := by
    have := Gen.N_0; show _ < grid0.N; omega
  obtain ⟨t, ht⟩ : ∃ t : Fin cfg0.N, t.val = 96 * ((i 0).val / 512) + 16 * ((i 1).val / 2048) + 15 := ⟨⟨_, hT⟩, rfl⟩
  have hc := coords_val t
  rw [ht] at hc
  refine ⟨t, ?_, ?_⟩
  · rw [Gen.flush0_5, ht]; omega
  · show i ∈ ((View.whole main_v15).slice (win0_5.rect t)).set
    rw [View.set_slice_whole, Rect.mem_set_unit]
    intro a
    match a with
    | ⟨0, _⟩ =>
      show win0_5.index t 0 * 512 ≤ (i 0).val ∧ (i 0).val < win0_5.index t 0 * 512 + (Pipeline.Clip.of (win0_5.index t 0) 512 2048).extent 512
      rw [mem_extent_iff, index5_0, hc.1]; omega
    | ⟨1, _⟩ =>
      show win0_5.index t 1 * 2048 ≤ (i 1).val ∧ (i 1).val < win0_5.index t 1 * 2048 + (Pipeline.Clip.of (win0_5.index t 1) 2048 11008).extent 2048
      rw [mem_extent_iff, index5_1, hc.2.1]; omega

/-! ### Which coordinates of a block a transfer moves -/

theorem moved1_iff (t : Fin cfg0.N) (kk qq : Fin 256) :
    (win0 1).moved (grid0.coords t) (ix2 kk qq) = true ↔ 256 * (grid0.coords t 1).val + qq.val < 1376 := by
  rw [Pipeline.Window.moved_iff]
  constructor
  · intro h
    have h1 : qq.val < (Pipeline.Clip.of (win0_1.index t 1) 256 1376).extent 256 := h 1
    rw [lt_extent_iff, index1_1] at h1; omega
  · intro hq a
    match a with
    | ⟨0, _⟩ =>
      show kk.val < (Pipeline.Clip.of (win0_1.index t 0) 256 4096).extent 256
      rw [lt_extent_iff, index1_0]; have := c2_lt t; omega
    | ⟨1, _⟩ =>
      show qq.val < (Pipeline.Clip.of (win0_1.index t 1) 256 1376).extent 256
      rw [lt_extent_iff, index1_1]; omega
theorem moved2_iff (t : Fin cfg0.N) (g : Fin 32) (q : Fin 2048) :
    (win0 2).moved (grid0.coords t) (ix2 g q) = true ↔ ValidQ t q := by
  rw [Pipeline.Window.moved_iff]
  unfold ValidQ
  constructor
  · intro h
    have h1 : q.val < (Pipeline.Clip.of (win0_2.index t 1) 2048 11008).extent 2048 := h 1
    rw [lt_extent_iff, index2_1] at h1; omega
  · intro hq a
    match a with
    | ⟨0, _⟩ =>
      show g.val < (Pipeline.Clip.of (win0_2.index t 0) 32 32).extent 32
      rw [lt_extent_iff, index2_0]; omega
    | ⟨1, _⟩ =>
      show q.val < (Pipeline.Clip.of (win0_2.index t 1) 2048 11008).extent 2048
      rw [lt_extent_iff, index2_1]; omega
theorem moved3_iff (t : Fin cfg0.N) (g : Fin 32) (q : Fin 2048) :
    (win0 3).moved (grid0.coords t) (ix2 g q) = true ↔ ValidQ t q := by
  rw [Pipeline.Window.moved_iff]
  unfold ValidQ
  constructor
  · intro h
    have h1 : q.val < (Pipeline.Clip.of (win0_3.index t 1) 2048 11008).extent 2048 := h 1
    rw [lt_extent_iff, index3_1] at h1; omega
  · intro hq a
    match a with
    | ⟨0, _⟩ =>
      show g.val < (Pipeline.Clip.of (win0_3.index t 0) 32 32).extent 32
      rw [lt_extent_iff, index3_0]; omega
    | ⟨1, _⟩ =>
      show q.val < (Pipeline.Clip.of (win0_3.index t 1) 2048 11008).extent 2048
      rw [lt_extent_iff, index3_1]; omega
theorem moved4_iff (t : Fin cfg0.N) (z : Fin 1) (q : Fin 2048) :
    (win0 4).moved (grid0.coords t) (ix2 z q) = true ↔ ValidQ t q := by
  rw [Pipeline.Window.moved_iff]
  unfold ValidQ
  constructor
  · intro h
    have h1 : q.val < (Pipeline.Clip.of (win0_4.index t 1) 2048 11008).extent 2048 := h 1
    rw [lt_extent_iff, index4_1] at h1; omega
  · intro hq a
    match a with
    | ⟨0, _⟩ =>
      show z.val < (Pipeline.Clip.of (win0_4.index t 0) 1 1).extent 1
      rw [lt_extent_iff, index4_0]; omega
    | ⟨1, _⟩ =>
      show q.val < (Pipeline.Clip.of (win0_4.index t 1) 2048 11008).extent 2048
      rw [lt_extent_iff, index4_1]; omega
theorem moved5_iff (t : Fin cfg0.N) (p : Fin 512) (q : Fin 2048) :
    (win0 5).moved (grid0.coords t) (ix2 p q) = true ↔ ValidQ t q := by
  rw [Pipeline.Window.moved_iff]
  unfold ValidQ
  constructor
  · intro h
    have h1 : q.val < (Pipeline.Clip.of (win0_5.index t 1) 2048 11008).extent 2048 := h 1
    rw [lt_extent_iff, index5_1] at h1; omega
  · intro hq a
    match a with
    | ⟨0, _⟩ =>
      show p.val < (Pipeline.Clip.of (win0_5.index t 0) 512 2048).extent 512
      rw [lt_extent_iff, index5_0]; have := c0_lt t; omega
    | ⟨1, _⟩ =>
      show q.val < (Pipeline.Clip.of (win0_5.index t 1) 2048 11008).extent 2048
      rw [lt_extent_iff, index5_1]; omega

end Result

end Cert.KernelIdeal.HostPre

end
-- ==== Proof.KIAcc.lean ====
/-
  The accumulator's invariant and its three steps. After the body at point `t` the accumulator holds, at every
  entry (p, q) whose column lies inside the arrays, the running sum of the first `k + 1` stretches for the result
  entry that (p, q) stands for (`AccOk`), `k` the point's contraction step. It holds after a first point (the sum
  restarts from zero), is carried from a point to the next of the same run of sixteen, and at the last point the
  block stored — accumulator plus bias row — is, on the columns inside the arrays, the block of the kernel's
  result `outK`.
-/
import proofs.«400274_j61847529063064_3_alg».proof.Proof.KIFrame
import proofs.«400274_j61847529063064_3_alg».proof.Proof.KIStep
import proofs.«400274_j61847529063064_3_alg».proof.Proof.HostPre

set_option maxRecDepth 16384

noncomputable section

open scoped BigOperators

namespace Cert.KernelIdeal.Exact

open Cert.KernelIdeal Cert.KernelIdeal.Gen Cert.KernelIdeal.Body Cert.KernelIdeal.Index Cert.KernelIdeal.PayIdx Cert.KernelIdeal.HostPre
open Cert.QLin Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The five argument arrays on core `c`. -/
abbrev aX (c : Dev nD) : AX := m ((c : Thread nD τ).loc main_arg0)
abbrev aQW (c : Dev nD) : AQW := m ((c : Thread nD τ).loc main_arg1)
abbrev aQZ (c : Dev nD) : AQZ := m ((c : Thread nD τ).loc main_arg2)
abbrev aSC (c : Dev nD) : ASC := m ((c : Thread nD τ).loc main_arg3)
abbrev aB (c : Dev nD) : AB := m ((c : Thread nD τ).loc main_arg4)

/-- The accumulator after point `t`: the running sum through the point's contraction step, on the columns inside. -/
def AccOk (c : Dev nD) (t : Fin cfg0.N) (XS : Vec Ideal S512x2048 .f32) : Prop :=
  ∀ (p : Fin 512) (q : Fin 2048), ValidQ t q →
    XS (ix2 p q) = accK (aX m c) (aQW m c) (aQZ m c) (aSC m c) (rAt t p) (nAt t q) (kAt t).val

/-- The output block of point `t`: the kernel's result at the entries the block stands for. -/
def outBlk (c : Dev nD) (t : Fin cfg0.N) : S512x2048.Idx → Elt Ideal .f32 :=
  fun j => outK (aX m c) (aQW m c) (aQZ m c) (aSC m c) (aB m c) (ix2 (rAt t (j 0)) (nAt t (j 1)))

theorem accOk_first (c : Dev nD) (t : Fin cfg0.N) (h0 : t.val % 16 = 0) (d1 : S256x256.Idx → Elt Ideal .i32) (d2 d3 : S32x2048.Idx → Elt Ideal .f32) :
    AccOk m c t (stepTerm (F := Ideal) (grid0.coords t) (iblk m c 0 t) ((win0 1).fill (grid0.coords t) d1 (iblk m c 1 t)) ((win0 2).fill (grid0.coords t) d2 (iblk m c 2 t)) ((win0 3).fill (grid0.coords t) d3 (iblk m c 3 t)) (k0_pay3 (F := Ideal))) := by
  intro p q hq
  rw [step_apply (grid0.coords t) _ _ _ _ _ (aX m c) (aQW m c) (aQZ m c) (aSC m c) (rAt t p) (nAt t q) p q (kAt t) rfl
    (fun kk => staged0 m c t p kk) (fun kk => staged1 m c t d1 kk q hq) (lane8_nAt t q hq)
    (fun g => staged2 m c t d2 g q hq) (fun g => staged3 m c t d3 g q hq), pay3_apply]
  have hk : kAt t = 0 := Fin.ext (by have := (coords_val t).2.2; show (grid0.coords t 2).val = 0; omega)
  rw [hk]; rfl

theorem accOk_next (c : Dev nD) (t : Fin cfg0.N) (h0 : t.val % 16 ≠ 0) (XS : Vec Ideal S512x2048 .f32)
    (hXS : AccOk m c ⟨t.val - 1, Nat.lt_of_le_of_lt (Nat.sub_le _ _) t.isLt⟩ XS)
    (d1 : S256x256.Idx → Elt Ideal .i32) (d2 d3 : S32x2048.Idx → Elt Ideal .f32) :
    AccOk m c t (stepTerm (F := Ideal) (grid0.coords t) (iblk m c 0 t) ((win0 1).fill (grid0.coords t) d1 (iblk m c 1 t)) ((win0 2).fill (grid0.coords t) d2 (iblk m c 2 t)) ((win0 3).fill (grid0.coords t) d3 (iblk m c 3 t)) XS) := by
  intro p q hq
  obtain ⟨e0, e1, e2⟩ := prev_coords t h0
  have hq' : ValidQ ⟨t.val - 1, Nat.lt_of_le_of_lt (Nat.sub_le _ _) t.isLt⟩ q := by unfold ValidQ; rw [e1]; exact hq
  have hr : rAt ⟨t.val - 1, Nat.lt_of_le_of_lt (Nat.sub_le _ _) t.isLt⟩ p = rAt t p := Fin.ext (by unfold rAt; simp only [e0])
  have hn : nAt ⟨t.val - 1, Nat.lt_of_le_of_lt (Nat.sub_le _ _) t.isLt⟩ q = nAt t q := Fin.ext (by unfold nAt; simp only [e1])
  rw [step_apply (grid0.coords t) _ _ _ _ _ (aX m c) (aQW m c) (aQZ m c) (aSC m c) (rAt t p) (nAt t q) p q (kAt t) rfl
    (fun kk => staged0 m c t p kk) (fun kk => staged1 m c t d1 kk q hq) (lane8_nAt t q hq)
    (fun g => staged2 m c t d2 g q hq) (fun g => staged3 m c t d3 g q hq), hXS p q hq', hr, hn]
  have hk : (kAt t).val = (kAt ⟨t.val - 1, Nat.lt_of_le_of_lt (Nat.sub_le _ _) t.isLt⟩).val + 1 := e2.symm
  have hlt : (kAt ⟨t.val - 1, Nat.lt_of_le_of_lt (Nat.sub_le _ _) t.isLt⟩).val + 1 < 16 := hk ▸ (kAt t).isLt
  rw [hk, accK_succ _ _ _ _ _ _ _ hlt]
  exact congrArg (_ + stretch _ _ _ _ _ _ ·) (Fin.ext hk)

theorem out_ok (c : Dev nD) (t : Fin cfg0.N) (h1 : t.val % 16 = 15) (XS : Vec Ideal S512x2048 .f32) (hXS : AccOk m c t XS)
    (d4 : S1x2048.Idx → Elt Ideal .f32) :
    (win0 5).cut (grid0.coords t) (k0_pay2 (F := Ideal) XS ((win0 4).fill (grid0.coords t) d4 (iblk m c 4 t))) = (win0 5).cut (grid0.coords t) (outBlk m c t) := by
  funext y
  have hp : (y 0).val < 512 := lt_of_lt_of_le (y 0).isLt ((win0 5).xsize_le (grid0.coords t) 0)
  have hq2 : (y 1).val < 2048 := lt_of_lt_of_le (y 1).isLt ((win0 5).xsize_le (grid0.coords t) 1)
  have hj : (win0 5).xinj (grid0.coords t) y = ix2 (⟨(y 0).val, hp⟩ : Fin 512) (⟨(y 1).val, hq2⟩ : Fin 2048) :=
    funext fun a => match a with | ⟨0, _⟩ => rfl | ⟨1, _⟩ => rfl
  have hv : ValidQ t ⟨(y 1).val, hq2⟩ := (moved5_iff t _ _).mp (hj ▸ (win0 5).moved_xinj (grid0.coords t) y)
  show k0_pay2 (F := Ideal) XS _ ((win0 5).xinj (grid0.coords t) y) = outBlk m c t ((win0 5).xinj (grid0.coords t) y)
  rw [hj, pay2_apply, hXS _ _ hv, staged4 m c t d4 _ hv]
  have hk : (kAt t).val = 15 := by have := (coords_val t).2.2; show (grid0.coords t 2).val = 15; omega
  rw [hk]
  rfl

end Cert.KernelIdeal.Exact

end
-- ==== Proof.KIExact.lean ====
/-
  The kernel's value. The pipeline's proof data now name everything: each input's staging buffer as in the frame;
  the accumulator, in the region's invariant, at SOME contents that are the running sum on the columns inside the
  arrays (`AccOk`; past the arrays' end the clipped fetches leave words nothing names, and the body's arithmetic on
  them stays in those columns); the output's staging buffer, at the points that store it, at the kernel's result
  block. The body obligation is the frame's with these values carried through the three control cases; the launch
  then gives the result array as the blocks written back, which tile it: it ends holding `outK` of the arguments.
-/
import proofs.«400274_j61847529063064_3_alg».proof.Proof.KIAcc
import proofs.«400274_j61847529063064_3_alg».proof.Proof.KIPieces

set_option maxRecDepth 16384

noncomputable section

open scoped BigOperators

namespace Cert.KernelIdeal.Exact

open Cert.KernelIdeal Cert.KernelIdeal.Gen Cert.KernelIdeal.Body Cert.KernelIdeal.Index Cert.KernelIdeal.PayIdx Cert.KernelIdeal.HostPre
open Cert.QLin Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The invariant: the accumulator between points -/

/-- Before point `n`: at the start whatever the launch leaves; afterwards the accumulator at contents that are the
    running sum of the point before, on the columns inside the arrays. -/
def PhiE (c : Dev nD) : (n : ℕ) → n ≤ cfg0.N → sProp 𝕄
  | 0, _ => Pipeline.ΦA spec0 c
  | n + 1, hn => iprop(iprop(∃ XS, ⌜AccOk m c ⟨n, hn⟩ XS⌝ ∗ owns (c : Thread nD τ) scM fullShare XS) ∗ (∃ r, prngReg c r))

theorem PhiE_zero (c : Dev nD) (n : ℕ) (h : n ≤ cfg0.N) (hz : n = 0) : PhiE m c n h = Pipeline.ΦA spec0 c := by
  subst hz; rfl
theorem PhiE_succ (c : Dev nD) (n : ℕ) (hn : n < cfg0.N) :
    PhiE m c (n + 1) hn = iprop(iprop(∃ XS, ⌜AccOk m c ⟨n, hn⟩ XS⌝ ∗ owns (c : Thread nD τ) scM fullShare XS) ∗ (∃ r, prngReg c r)) := rfl
theorem PhiE_pos (c : Dev nD) (n : ℕ) (h : n ≤ cfg0.N) (hz : n ≠ 0) :
    PhiE m c n h = iprop(iprop(∃ XS, ⌜AccOk m c ⟨n - 1, by omega⟩ XS⌝ ∗ owns (c : Thread nD τ) scM fullShare XS) ∗ (∃ r, prngReg c r)) := by
  cases n with
  | zero => exact absurd rfl hz
  | succ n => rfl

/-- Whatever the point, the invariant holds the accumulator at some contents. -/
theorem PhiE_weak (c : Dev nD) (n : ℕ) (h : n ≤ cfg0.N) :
    PhiE m c n h ⊢ (iprop(iprop(∃ d, owns (c : Thread nD τ) scM fullShare d) ∗ (∃ r, prngReg c r)) : sProp 𝕄) := by
  cases n with
  | zero => rw [PhiE_zero m c 0 h rfl, PhiA_eq]
  | succ n =>
    rw [PhiE_succ]
    iintro ⟨⟨%XS, %hXS, HS⟩, Hg⟩
    isplitl [HS]
    · iexists XS; iexact HS
    iexact Hg

/-! ## The proof data -/

def edats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => held1 m c t
    | ⟨2, _⟩ => held2 m c t
    | ⟨3, _⟩ => held3 m c t
    | ⟨4, _⟩ => held4 m c t
    | ⟨5, _⟩ => outBlk m c t
  Φ t := PhiE m c t.val (Nat.le_of_lt_succ t.isLt)
  q _ := fullShare
  owed _ := 0

theorem eA_eq (c : Dev nD) (w : Fin cfg0.W) : (edats m 0 c).A w = V m c (Pipeline.arrRef spec0 w) := by
  dsimp only [edats]
theorem ePhi_castSucc (c : Dev nD) (t : Fin cfg0.N) : (edats m 0 c).Φ t.castSucc = PhiE m c t.val (Nat.le_of_lt t.isLt) := by
  dsimp only [edats]; simp only [Fin.coe_castSucc]

theorem eafter0 (c : Dev nD) (t : Fin cfg0.N) : (edats m 0 c).after 0 t = iblk m c 0 t := by dsimp only [edats]
theorem eafter1 (c : Dev nD) (t : Fin cfg0.N) : (edats m 0 c).after 1 t = held1 m c t := by dsimp only [edats]
theorem eafter2 (c : Dev nD) (t : Fin cfg0.N) : (edats m 0 c).after 2 t = held2 m c t := by dsimp only [edats]
theorem eafter3 (c : Dev nD) (t : Fin cfg0.N) : (edats m 0 c).after 3 t = held3 m c t := by dsimp only [edats]
theorem eafter4 (c : Dev nD) (t : Fin cfg0.N) : (edats m 0 c).after 4 t = held4 m c t := by dsimp only [edats]
theorem eafter5 (c : Dev nD) (t : Fin cfg0.N) : (edats m 0 c).after 5 t = outBlk m c t := by dsimp only [edats]

theorem ebefore0 (c : Dev nD) (t : Fin cfg0.N) (d) : (edats m 0 c).before 0 t d = iblk m c 0 t :=
  before0_0_of m (edats m 0 c) (eA_eq m c 0) (eafter0 m c) t d
theorem ebefore1 (c : Dev nD) (t : Fin cfg0.N) (d) :
    (edats m 0 c).before 1 t d = win0_1.fill (grid0.coords t) d (iblk m c 1 t) :=
  ((edats m 0 c).before_in_eq_fetched 1 rfl (fun _ => rfl)
    (fun t t' h => funext fun a => by
      show Pipeline.Clip.of ((cfg0.win 1).index t a) _ _ = Pipeline.Clip.of ((cfg0.win 1).index t' a) _ _
      rw [h])
    (fun t => by rw [eafter1]; exact win0_1.cut_fill _ _ _) t d)
theorem ebefore2 (c : Dev nD) (t : Fin cfg0.N) (d) :
    (edats m 0 c).before 2 t d = win0_2.fill (grid0.coords t) d (iblk m c 2 t) :=
  ((edats m 0 c).before_in_eq_fetched 2 rfl (fun _ => rfl)
    (fun t t' h => funext fun a => by
      show Pipeline.Clip.of ((cfg0.win 2).index t a) _ _ = Pipeline.Clip.of ((cfg0.win 2).index t' a) _ _
      rw [h])
    (fun t => by rw [eafter2]; exact win0_2.cut_fill _ _ _) t d)
theorem ebefore3 (c : Dev nD) (t : Fin cfg0.N) (d) :
    (edats m 0 c).before 3 t d = win0_3.fill (grid0.coords t) d (iblk m c 3 t) :=
  ((edats m 0 c).before_in_eq_fetched 3 rfl (fun _ => rfl)
    (fun t t' h => funext fun a => by
      show Pipeline.Clip.of ((cfg0.win 3).index t a) _ _ = Pipeline.Clip.of ((cfg0.win 3).index t' a) _ _
      rw [h])
    (fun t => by rw [eafter3]; exact win0_3.cut_fill _ _ _) t d)
theorem ebefore4 (c : Dev nD) (t : Fin cfg0.N) (d) :
    (edats m 0 c).before 4 t d = win0_4.fill (grid0.coords t) d (iblk m c 4 t) :=
  ((edats m 0 c).before_in_eq_fetched 4 rfl (fun _ => rfl)
    (fun t t' h => funext fun a => by
      show Pipeline.Clip.of ((cfg0.win 4).index t a) _ _ = Pipeline.Clip.of ((cfg0.win 4).index t' a) _ _
      rw [h])
    (fun t => by rw [eafter4]; exact win0_4.cut_fill _ _ _) t d)

/-! ## The body obligation -/

set_option maxHeartbeats 8000000 in
theorem ebody (c : Dev nD) : BodyObligationLoose (edats m 0 c) (defs₀ (F := Ideal)) Variants.none () Set.univ := fun t => by
  rw [bigSep_W0, bigSep_W0]
  show _ ⊢ wp frame (wpE (defs₀ (F := Ideal)) Variants.none c none) Set.univ (bodyAt0 t) (fun _ =>
    iprop((edats m 0 c).Φ t.succ ∗ (edats m 0 c).owesAt () t.succ ∗ (edats m 0 c).leaves 0 t ∗ (edats m 0 c).leaves 1 t
      ∗ (edats m 0 c).leaves 2 t ∗ (edats m 0 c).leaves 3 t ∗ (edats m 0 c).leaves 4 t ∗ (edats m 0 c).leaves 5 t))
  have L0 : (edats m 0 c).leaves 0 t = owns (c : Thread nD τ) (ms0 t) fullShare (iblk m c 0 t) := by
    unfold Dat.leaves; rw [live0 t, eafter0]
  have L1 : (edats m 0 c).leaves 1 t = iprop(∃ d, owns (c : Thread nD τ) (ms1 t) fullShare
      ((win0 1).fill (grid0.coords t) d ((win0 1).cut (grid0.coords t) ((edats m 0 c).after 1 t)))) := by
    unfold Dat.leaves; rw [live1 t]; rfl
  have L2 : (edats m 0 c).leaves 2 t = iprop(∃ d, owns (c : Thread nD τ) (ms2 t) fullShare
      ((win0 2).fill (grid0.coords t) d ((win0 2).cut (grid0.coords t) ((edats m 0 c).after 2 t)))) := by
    unfold Dat.leaves; rw [live2 t]; rfl
  have L3 : (edats m 0 c).leaves 3 t = iprop(∃ d, owns (c : Thread nD τ) (ms3 t) fullShare
      ((win0 3).fill (grid0.coords t) d ((win0 3).cut (grid0.coords t) ((edats m 0 c).after 3 t)))) := by
    unfold Dat.leaves; rw [live3 t]; rfl
  have L4 : (edats m 0 c).leaves 4 t = iprop(∃ d, owns (c : Thread nD τ) (ms4 t) fullShare
      ((win0 4).fill (grid0.coords t) d ((win0 4).cut (grid0.coords t) ((edats m 0 c).after 4 t)))) := by
    unfold Dat.leaves; rw [live4 t]; rfl
  rw [L0, L1, L2, L3, L4]
  simp only []
  rw [ePhi_castSucc, show (edats m 0 c).Φ t.succ = PhiE m c (t.val + 1) t.isLt from rfl, PhiE_succ,
    show (edats m 0 c).owesAt () t.succ = (edats m 0 c).owesAt () t.castSucc from rfl]
  simp only [ebefore0, ebefore1, ebefore2, ebefore3, ebefore4]
  unfold bodyAt0
  by_cases h0 : t.val % 16 = 0
  · have hc0 : condFirst (grid0.coords t) := (hcondFirst t).mpr h0
    have hc1 : ¬condLast (grid0.coords t) := fun h => by have := (hcondLast t).mp h; omega
    rw [Dat.leaves_idle (edats m 0 c) 5 t (idle5 t hc1) (noFlush5 t hc1)]
    refine (sep_mono (PhiE_weak m c t.val (Nat.le_of_lt t.isLt)) .rfl).trans ?_
    iintro ⟨⟨⟨%ds, HS⟩, Hg⟩, Ho, ⟨%d0, H0⟩, ⟨%d1, H1⟩, ⟨%d2, H2⟩, ⟨%d3, H3⟩, ⟨%d4, H4⟩, ⟨%d5, H5⟩⟩
    iapply ((runFirst c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t))).2 ((win0 4).fill (grid0.coords t) d4 (iblk m c 4 t)) ((edats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexists ds; iexact HS
    iintro ⟨H0, H1, H2, H3, H4, H5, ⟨%fs, HS⟩⟩
    isplitl [HS Hg]
    · isplitl [HS]
      · iexists (accFirst c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t))); isplitr
        · ipureintro; exact (by rw [accFirst_eq]; exact accOk_first m c t h0 d1 d2 d3)
        unfold owns; iexists _; isplitr
        swap; · iexact HS
        ipureintro; exact View.read_writes_of_cover _ _ _ _ _ (coverFirst c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)))
      iexact Hg
    isplitl [Ho]; · iexact Ho
    isplitl [H0]; · iexact H0
    isplitl [H1]
    · iexists d1
      change _ ⊢ owns (c : Thread nD τ) (ms1 t) fullShare (win0_1.fill (grid0.coords t) d1 (win0_1.cut (grid0.coords t) (held1 m c t)))
      rw [show win0_1.cut (grid0.coords t) (held1 m c t) = iblk m c 1 t from win0_1.cut_fill _ _ _]
      all_goals iexact H1
    isplitl [H2]
    · iexists d2
      change _ ⊢ owns (c : Thread nD τ) (ms2 t) fullShare (win0_2.fill (grid0.coords t) d2 (win0_2.cut (grid0.coords t) (held2 m c t)))
      rw [show win0_2.cut (grid0.coords t) (held2 m c t) = iblk m c 2 t from win0_2.cut_fill _ _ _]
      all_goals iexact H2
    isplitl [H3]
    · iexists d3
      change _ ⊢ owns (c : Thread nD τ) (ms3 t) fullShare (win0_3.fill (grid0.coords t) d3 (win0_3.cut (grid0.coords t) (held3 m c t)))
      rw [show win0_3.cut (grid0.coords t) (held3 m c t) = iblk m c 3 t from win0_3.cut_fill _ _ _]
      all_goals iexact H3
    isplitl [H4]
    · iexists d4
      change _ ⊢ owns (c : Thread nD τ) (ms4 t) fullShare (win0_4.fill (grid0.coords t) d4 (win0_4.cut (grid0.coords t) (held4 m c t)))
      rw [show win0_4.cut (grid0.coords t) (held4 m c t) = iblk m c 4 t from win0_4.cut_fill _ _ _]
      all_goals iexact H4
    iexists d5; iexact H5
  · have hz : t.val ≠ 0 := fun h => h0 (by rw [h])
    rw [PhiE_pos m c _ _ hz]
    by_cases h1 : t.val % 16 = 15
    · have hc0 : ¬condFirst (grid0.coords t) := fun h => h0 ((hcondFirst t).mp h)
      have hc1 : condLast (grid0.coords t) := (hcondLast t).mpr h1
      rw [show (edats m 0 c).leaves 5 t = iprop(∃ d, owns (c : Thread nD τ) (ms5 t) fullShare
          ((win0 5).fill (grid0.coords t) d ((win0 5).cut (grid0.coords t) ((edats m 0 c).after 5 t)))) from by
        unfold Dat.leaves; rw [live5 t hc1]; rfl]
      iintro ⟨⟨⟨%XS, %hXS, HS⟩, Hg⟩, Ho, ⟨%d0, H0⟩, ⟨%d1, H1⟩, ⟨%d2, H2⟩, ⟨%d3, H3⟩, ⟨%d4, H4⟩, ⟨%d5, H5⟩⟩
      have hacc := accOk_next m c t h0 XS hXS d1 d2 d3
      iapply ((runLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%f5, H5⟩, ⟨%fs, HS⟩⟩
      isplitl [HS Hg]
      · isplitl [HS]
        · iexists (accLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS); isplitr
          · ipureintro; exact (by rw [accLast_eq]; exact hacc)
          unfold owns; iexists _; isplitr
          swap; · iexact HS
          ipureintro; exact View.read_writes_of_cover _ _ _ _ _ (coverLastAcc c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS)
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]
        all_goals iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]
        all_goals iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]
        all_goals iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]
        all_goals iexact H4
      have hXO : (win0 5).cut (grid0.coords t) (outLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS)
          = (win0 5).cut (grid0.coords t) (outBlk m c t) := by
        rw [outLast_eq]; exact out_ok m c t h1 _ hacc d4
      iexists (outLast c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS)
      rw [eafter5, (win0 5).fill_congr_cut (grid0.coords t) hXO]
      unfold owns; iexists _; isplitr
      swap; · iexact H5
      ipureintro; exact View.read_writes_of_cover _ _ _ _ _ (coverLastOut c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) ((win0 4).fill (grid0.coords t) d4 (iblk m c 4 t)) XS)
    · have hc0 : ¬condFirst (grid0.coords t) := fun h => h0 ((hcondFirst t).mp h)
      have hc1 : ¬condLast (grid0.coords t) := fun h => h1 ((hcondLast t).mp h)
      rw [Dat.leaves_idle (edats m 0 c) 5 t (idle5 t hc1) (noFlush5 t hc1)]
      iintro ⟨⟨⟨%XS, %hXS, HS⟩, Hg⟩, Ho, ⟨%d0, H0⟩, ⟨%d1, H1⟩, ⟨%d2, H2⟩, ⟨%d3, H3⟩, ⟨%d4, H4⟩, ⟨%d5, H5⟩⟩
      have hacc := accOk_next m c t h0 XS hXS d1 d2 d3
      iapply ((runMiddle c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) XS).2 ((win0 4).fill (grid0.coords t) d4 (iblk m c 4 t)) ((edats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%fs, HS⟩⟩
      isplitl [HS Hg]
      · isplitl [HS]
        · iexists (accMiddle c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) XS); isplitr
          · ipureintro; exact (by rw [accMiddle_eq]; exact hacc)
          unfold owns; iexists _; isplitr
          swap; · iexact HS
          ipureintro; exact View.read_writes_of_cover _ _ _ _ _ (coverMiddle c (grid0.coords t) (ms0 t) (hs0 t) (ms1 t) (hs1 t) (ms2 t) (hs2 t) (ms3 t) (hs3 t) (ms4 t) (hs4 t) (ms5 t) (hs5 t) scM (Memref.isWhole_whole _) hc0 hc1 (iblk m c 0 t) ((win0 1).fill (grid0.coords t) d1 (iblk m c 1 t)) ((win0 2).fill (grid0.coords t) d2 (iblk m c 2 t)) ((win0 3).fill (grid0.coords t) d3 (iblk m c 3 t)) XS)
        iexact Hg
      isplitl [Ho]; · iexact Ho
      isplitl [H0]; · iexact H0
      isplitl [H1]
      · iexists d1
        change _ ⊢ owns (c : Thread nD τ) (ms1 t) fullShare (win0_1.fill (grid0.coords t) d1 (win0_1.cut (grid0.coords t) (held1 m c t)))
        rw [show win0_1.cut (grid0.coords t) (held1 m c t) = iblk m c 1 t from win0_1.cut_fill _ _ _]
        all_goals iexact H1
      isplitl [H2]
      · iexists d2
        change _ ⊢ owns (c : Thread nD τ) (ms2 t) fullShare (win0_2.fill (grid0.coords t) d2 (win0_2.cut (grid0.coords t) (held2 m c t)))
        rw [show win0_2.cut (grid0.coords t) (held2 m c t) = iblk m c 2 t from win0_2.cut_fill _ _ _]
        all_goals iexact H2
      isplitl [H3]
      · iexists d3
        change _ ⊢ owns (c : Thread nD τ) (ms3 t) fullShare (win0_3.fill (grid0.coords t) d3 (win0_3.cut (grid0.coords t) (held3 m c t)))
        rw [show win0_3.cut (grid0.coords t) (held3 m c t) = iblk m c 3 t from win0_3.cut_fill _ _ _]
        all_goals iexact H3
      isplitl [H4]
      · iexists d4
        change _ ⊢ owns (c : Thread nD τ) (ms4 t) fullShare (win0_4.fill (grid0.coords t) d4 (win0_4.cut (grid0.coords t) (held4 m c t)))
        rw [show win0_4.cut (grid0.coords t) (held4 m c t) = iblk m c 4 t from win0_4.cut_fill _ _ _]
        all_goals iexact H4
      iexists d5; iexact H5

/-! ## The launch -/

theorem ehin (c : Dev nD) : Pipeline.ΦA spec0 c ⊢ (edats m 0 c).Φ 0 := by
  rw [show (edats m 0 c).Φ 0 = PhiE m c 0 (Nat.zero_le _) from rfl, PhiE_zero m c 0 _ rfl]

theorem ehout (c : Dev nD) : (edats m 0 c).Φ (Fin.last cfg0.N) ⊢ Pipeline.ΦA spec0 c := by
  rw [show (edats m 0 c).Φ (Fin.last cfg0.N) = PhiE m c (Fin.last cfg0.N).val (Nat.le_of_lt_succ (Fin.last cfg0.N).isLt) from rfl, PhiA_eq]
  exact PhiE_weak m c _ _

set_option backward.isDefEq.respectTransparency.types false in
/-- Every weakly fair execution of @main terminates without fault, with every array of the pallas_call at what the
    write-backs of the proof data's blocks leave, and every other buffer as the pallas_call found it. -/
theorem erun : θ_run defs (onTc (τ := τ) (main (F := Ideal))) (s₀ m ρ) (Pipeline.FramePost cfgs (edats m) 0 (V m)) :=
  Pipeline.θ_run_frame_track cfgs (edats m) (0 : Fin 1) launch0 defs₀ Variants.none m ρ main
    (hbody := fun c => ebody m c) (hshare := fun c => (edats m 0 c).share_full fun _ => rfl)
    (howed := fun _ _ => rfl) (V := V m) (hmain := hmain m Variants.none) (hA := eA_eq m) (hin := ehin m) (hout := ehout m)

/-- The result array after the run: each last point of a run of sixteen writes back its block of `outK`, cut at the
    array's end, and those blocks cover the array. -/
theorem efinal (c : Dev nD) :
    (edats m 0 c).arrAt 5 cfg0.N = outK (aX m c) (aQW m c) (aQZ m c) (aSC m c) (aB m c) :=
  (edats m 0 c).arrAt_eq_of_cover 5 (outK (aX m c) (aQW m c) (aQZ m c) (aSC m c) (aB m c))
    (fun t _ => by
      show (win0 5).cut (grid0.coords t) ((edats m 0 c).after 5 t) = _
      rw [eafter5]
      exact cut5_eq t (outK (aX m c) (aQW m c) (aQZ m c) (aSC m c) (aB m c)))
    cover5

/-- THE VALUE: the result is `outK` of the five argument arrays, which end unchanged. -/
theorem value_run : θ_run defs (onTc (τ := τ) (main (F := Ideal))) ⟨m, fun _ => 0, ρ⟩ (fun r => ∀ c : Dev nD,
      r.2.mem ((c.tc : Thread nD τ).loc main_v15) = outK (aX m c) (aQW m c) (aQZ m c) (aSC m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (efinal m c),
      ((h c).2 main_arg0 (Pipeline.mem_restRefs_of main_arg0 (by decide) (by decide))).trans (V_main_arg0 m c),
      ((h c).1 1).trans (((edats m 0 c).arrAt_in 1 rfl _).trans ((eA_eq m c 1).trans (V_main_arg1 m c))),
      ((h c).2 main_arg2 (Pipeline.mem_restRefs_of main_arg2 (by decide) (by decide))).trans (V_main_arg2 m c),
      ((h c).1 2).trans (((edats m 0 c).arrAt_in 2 rfl _).trans ((eA_eq m c 2).trans (V_main_arg3 m c))),
      ((h c).2 main_arg4 (Pipeline.mem_restRefs_of main_arg4 (by decide) (by decide))).trans (V_main_arg4 m c)⟩) (erun m ρ)

end Cert.KernelIdeal.Exact

end
-- ==== Proof.RefSide.lean ====
import proofs.«400274_j61847529063064_3_alg».proof.Defs
import proofs.«400274_j61847529063064_3_alg».proof.Proof.Gen.ReferenceIdeal.Run
import proofs.«400274_j61847529063064_3_alg».proof.Proof.Gen.ReferenceIdeal.Read
import proofs.«400274_j61847529063064_3_alg».proof.Proof.Spec

/-!
  The reference program computes `outR`.

  Its thirty-eight host operations are read at one output entry `(r, n)`. The two unpackings are the same
  computation on two packed arrays: a word is broadcast along a new last axis of length eight, shifted right
  (arithmetic) by `4c` at position `c` of that axis, masked to four bits, and the last two axes `[1376, 8]` are
  flattened to `11008`; so unpacked column `n` is field `n % 8` of packed column `n / 8`. The per-group arrays
  (zero points, scales) are repeated 128 times along the rows by a broadcast to `[32, 128, 11008]` and a
  flattening to `[4096, 11008]`; so row `K` reads group `K / 128`. The rest is pointwise: `(q − z) · s`, the
  contraction over all 4096 rows, and the bias added along the columns.
-/

noncomputable section

open scoped BigOperators

namespace Cert.QLin.Ref

open Cert.ReferenceIdeal Cert.ReferenceIdeal.Gen Idealize.ShloMosaic Idealize.ShloMosaic.ValueIdx Idealize.ShloMosaic.TcCoe
  Idealize.SL.Sem Cert.QLin

/-! ## Words -/

/-- The shift amount `4c`, `c` below eight, is below the word width, so the host's arithmetic shift is the
    plain one. -/
theorem shrsi_field (w : BitVec 32) (c : Fin 8) :
    IntOp.shrsi .host w (BitVec.ofNat 32 c.val * 4#32) = w.sshiftRight' (BitVec.ofNat 32 c.val * 4#32) := by
  have h : ∀ c : Fin 8, (BitVec.ofNat 32 c.val * 4#32).toNat < 32 := by decide
  unfold IntOp.shrsi
  rw [if_pos (h c)]

/-- The shift amounts of the first unpacking: `4c` at position `c` of the last axis. -/
theorem shift_w (i : S4096x1376x8.Idx) :
    Read.val_main_v6 (F := Ideal) i = BitVec.ofNat 32 (i 2).val * 4#32 := by
  rw [Read.val_main_v6_apply, Read.val_main_v4_apply, Read.val_main_v2_apply, Read.val_main_v0_apply,
    Read.val_main_v1_apply, Read.val_main_c_apply]
  rfl

/-- The shift amounts of the second unpacking, likewise. -/
theorem shift_z (i : S32x1376x8.Idx) :
    Read.val_main_v17 (F := Ideal) i = BitVec.ofNat 32 (i 2).val * 4#32 := by
  rw [Read.val_main_v17_apply, Read.val_main_v15_apply, Read.val_main_v13_apply, Read.val_main_v11_apply,
    Read.val_main_v12_apply, Read.val_main_c_1_apply]
  rfl

/-- Entry `(K, p, c)` of the unpacked weights before flattening: field `c` of packed word `(K, p)`. -/
theorem field_w (x1 : (⟨S4096x1376, .i32⟩ : BufTy).Contents (Elt Ideal)) (K : Fin 4096) (p : Fin 1376) (c : Fin 8) :
    Read.val_main_v9 (F := Ideal) x1 (ix3 K p c) = nib (x1 (ix2 K p)) c := by
  have e : Read.idx_main_v3 (Read.idx_main_v5 (ix3 K p c)) = ix2 K p :=
    funext fun a => by match a with | ⟨0, _⟩ => rfl | ⟨1, _⟩ => rfl
  rw [Read.val_main_v9_apply, Read.val_main_v7_apply, Read.val_main_v5_apply, Read.val_main_v3_apply,
    Read.val_main_v8_apply, Read.val_main_c_0_apply, shift_w, e]
  show IntOp.andi (IntOp.shrsi .host (x1 (ix2 K p)) (BitVec.ofNat 32 c.val * 4#32)) 15#32 = _
  rw [shrsi_field]
  rfl

/-- Entry `(g, p, c)` of the unpacked zero points before flattening: field `c` of packed word `(g, p)`. -/
theorem field_z (x2 : (⟨S32x1376, .i32⟩ : BufTy).Contents (Elt Ideal)) (g : Fin 32) (p : Fin 1376) (c : Fin 8) :
    Read.val_main_v20 (F := Ideal) x2 (ix3 g p c) = nib (x2 (ix2 g p)) c := by
  have e : Read.idx_main_v14 (Read.idx_main_v16 (ix3 g p c)) = ix2 g p :=
    funext fun a => by match a with | ⟨0, _⟩ => rfl | ⟨1, _⟩ => rfl
  rw [Read.val_main_v20_apply, Read.val_main_v18_apply, Read.val_main_v16_apply, Read.val_main_v14_apply,
    Read.val_main_v19_apply, Read.val_main_c_2_apply, shift_z, e]
  show IntOp.andi (IntOp.shrsi .host (x2 (ix2 g p)) (BitVec.ofNat 32 c.val * 4#32)) 15#32 = _
  rw [shrsi_field]
  rfl

/-! ## Flattenings and repeats, by coordinates -/

/-- Flattening `[4096, 1376, 8]` to `[4096, 11008]`: column `n` comes from packed column `n / 8`, position `n % 8`. -/
theorem unflatten_w (K : Fin 4096) (n : Fin 11008) :
    Read.idx_main_v10 (ix2 K n) = ix3 K (col8 n) (lane8 n) :=
  funext fun a => Fin.ext (by
    have hK := K.isLt
    have hn := n.isLt
    match a with
    | ⟨0, _⟩ => show (K.val * 11008 + n.val) / 11008 = K.val; omega
    | ⟨1, _⟩ => show (K.val * 11008 + n.val) / 8 % 1376 = n.val / 8; omega
    | ⟨2, _⟩ => show (K.val * 11008 + n.val) % 8 = n.val % 8; omega)

/-- Flattening `[32, 1376, 8]` to `[32, 11008]`, likewise. -/
theorem unflatten_z (g : Fin 32) (n : Fin 11008) :
    Read.idx_main_v21 (ix2 g n) = ix3 g (col8 n) (lane8 n) :=
  funext fun a => Fin.ext (by
    have hg := g.isLt
    have hn := n.isLt
    match a with
    | ⟨0, _⟩ => show (g.val * 11008 + n.val) / 11008 = g.val; omega
    | ⟨1, _⟩ => show (g.val * 11008 + n.val) / 8 % 1376 = n.val / 8; omega
    | ⟨2, _⟩ => show (g.val * 11008 + n.val) % 8 = n.val % 8; omega)

/-- Repeating each group's row 128 times (zero points): row `K` reads group `K / 128`. -/
theorem repeat_z (K : Fin 4096) (n : Fin 11008) :
    Read.idx_main_v23 (Read.idx_main_v24 (ix2 K n)) = ix2 (grp K) n :=
  funext fun a => Fin.ext (by
    have hK := K.isLt
    have hn := n.isLt
    match a with
    | ⟨0, _⟩ => show (K.val * 11008 + n.val) / 1409024 = K.val / 128; omega
    | ⟨1, _⟩ => show (K.val * 11008 + n.val) % 11008 = n.val; omega)

/-- Repeating each group's row 128 times (scales), likewise. -/
theorem repeat_s (K : Fin 4096) (n : Fin 11008) :
    Read.idx_main_v25 (Read.idx_main_v26 (ix2 K n)) = ix2 (grp K) n :=
  funext fun a => Fin.ext (by
    have hK := K.isLt
    have hn := n.isLt
    match a with
    | ⟨0, _⟩ => show (K.val * 11008 + n.val) / 1409024 = K.val / 128; omega
    | ⟨1, _⟩ => show (K.val * 11008 + n.val) % 11008 = n.val; omega)

/-! ## The dequantised weight -/

/-- Entry `(K, n)` of the reference's weight matrix is `(q − z) · s`. -/
theorem weight (x1 : (⟨S4096x1376, .i32⟩ : BufTy).Contents (Elt Ideal))
    (x2 : (⟨S32x1376, .i32⟩ : BufTy).Contents (Elt Ideal)) (x3 : (⟨S32x11008, .f32⟩ : BufTy).Contents (Elt Ideal))
    (K : Fin 4096) (n : Fin 11008) :
    Read.val_main_v29 (F := Ideal) x1 x2 x3 (ix2 K n) = wR x1 x2 x3 K n := by
  rw [Read.val_main_v29_apply, Read.val_main_v28_apply, Read.val_main_v27_apply, Read.val_main_v10_apply,
    Read.val_main_v24_apply, Read.val_main_v23_apply, Read.val_main_v22_apply, Read.val_main_v21_apply,
    Read.val_main_v26_apply, Read.val_main_v25_apply, repeat_z, repeat_s, unflatten_w, unflatten_z,
    field_w, field_z]
  rfl

/-! ## The result -/

theorem val_eq_outR (x0 : (⟨S2048x4096, .f32⟩ : BufTy).Contents (Elt Ideal))
    (x1 : (⟨S4096x1376, .i32⟩ : BufTy).Contents (Elt Ideal)) (x2 : (⟨S32x1376, .i32⟩ : BufTy).Contents (Elt Ideal))
    (x3 : (⟨S32x11008, .f32⟩ : BufTy).Contents (Elt Ideal)) (x4 : (⟨S11008, .f32⟩ : BufTy).Contents (Elt Ideal)) :
    Cert.ReferenceIdeal.Read.val_main_v33 (F := Ideal) x0 x1 x2 x3 x4 = Cert.QLin.outR x0 x1 x2 x3 x4 := by
  funext i
  obtain ⟨r, n, rfl⟩ : ∃ (r : Fin 2048) (n : Fin 11008), i = ix2 r n := ⟨i 0, i 1, eq_ix2 i⟩
  have el : ∀ K : Fin 4096, Read.lidx_main_v30 (ix2 r n) K = ix2 r K := fun K =>
    funext fun a => by match a with | ⟨0, _⟩ => rfl | ⟨1, _⟩ => rfl
  have er : ∀ K : Fin 4096, Read.ridx_main_v30 (ix2 r n) K = ix2 K n := fun K =>
    funext fun a => by match a with | ⟨0, _⟩ => rfl | ⟨1, _⟩ => rfl
  have eb : Read.idx_main_v31 (Read.idx_main_v32 (ix2 r n)) = ix1 n :=
    funext fun a => by match a with | ⟨0, _⟩ => rfl
  rw [Read.val_main_v33_apply, Read.val_main_v30_apply, Read.val_main_v32_apply, Read.val_main_v31_apply, eb]
  simp only [el, er, weight]
  rfl

/-! ## The run -/

/-- Every weakly fair execution of the reference terminates with its result buffer at `outR` of the five
    argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = Cert.QLin.outR (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨by rw [(h c).1, Read.val_main_v33_eq, val_eq_outR], (h c).2⟩)
    (Cert.ReferenceIdeal.Value.run (F := Ideal) m ρ)

/-- The reference runs and leaves its arguments unchanged. -/
theorem frame [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.QLin.Ref

end
-- ==== Proof.Law.lean ====
/-
  Two facts about the arithmetic of `Spec`.

  First, the kernel's result and the reference's are the same array as soon as every scale is a real number.
  The kernel's running sum after the last of its sixteen steps is the sum of the sixteen stretches; a stretch is
  a sum over 256 consecutive contraction rows, and `(kt, kk) ↦ 256 · kt + kk` is a bijection from
  `Fin 16 × Fin 256` onto `Fin 4096`, so the sixteen stretches together are the whole contraction. Only the
  commutative-monoid structure of addition on the extended reals is used for this regrouping: nothing is assumed
  about the activations. Entry by entry the two dequantised weights agree: the 4-bit fields are real numbers by
  definition and the scale is a real number by hypothesis, so `q · s − z · s = (q − z) · s` is an identity of
  real numbers, carried to the extended reals by the coercion.

  Second, the printed precondition, when it holds, makes every scale a real number.
-/
import proofs.«400274_j61847529063064_3_alg».proof.Proof.Spec
import proofs.«400274_j61847529063064_3_alg».proof.Pre_finite_inputs
import Idealize.ShloMosaic.Lib.ReduceAll
import Idealize.ShloMosaic.Lib.ValueIdx
import Mathlib.Algebra.BigOperators.Fin
import Mathlib.Logic.Equiv.Fin.Basic
import Mathlib.Data.EReal.Operations

noncomputable section

open scoped BigOperators

namespace Cert.QLin

open Idealize.ShloMosaic Idealize.ShloMosaic.ValueIdx

/-! ### The two dequantised weights agree when the scale is real -/

/-- With a real scale `s` and real fields `q`, `z`: `q · s − z · s = (q − z) · s`, an identity of real numbers. -/
theorem wK_eq_wR (QW : AQW) (QZ : AQZ) (SC : ASC) (hSC : ∀ i, ∃ r : ℝ, SC i = (r : EReal))
    (K : Fin 4096) (n : Fin 11008) : wK QW QZ SC K n = wR QW QZ SC K n := by
  obtain ⟨s, hs⟩ := hSC (ix2 (grp K) n)
  simp only [wK, wR, zs, nibR, hs]
  rw [← EReal.coe_mul, ← EReal.coe_mul, ← EReal.coe_sub, ← EReal.coe_sub, ← EReal.coe_mul, sub_mul]

/-! ### The running sum is the sum of the stretches -/

/-- After steps `0 … k` the running sum is the sum of the first `k + 1` stretches (a stretch past the
sixteenth counts as zero, as in the recursion). -/
theorem accK_eq_sum_range (X : AX) (QW : AQW) (QZ : AQZ) (SC : ASC) (r : Fin 2048) (n : Fin 11008) (k : ℕ) :
    accK X QW QZ SC r n k
      = ∑ j ∈ Finset.range (k + 1), (if h : j < 16 then stretch X QW QZ SC r n ⟨j, h⟩ else 0) := by
  induction k with
  | zero =>
    rw [accK, Finset.sum_range_one, zero_add, dif_pos (by norm_num : (0 : ℕ) < 16)]
    rfl
  | succ k ih => rw [accK, ih, Finset.sum_range_succ _ (k + 1)]

/-- After the last step the running sum is the sum of all sixteen stretches. -/
theorem accK_last (X : AX) (QW : AQW) (QZ : AQZ) (SC : ASC) (r : Fin 2048) (n : Fin 11008) :
    accK X QW QZ SC r n 15 = ∑ kt : Fin 16, stretch X QW QZ SC r n kt := by
  have h : accK X QW QZ SC r n 15
      = ∑ j ∈ Finset.range 16, (if h : j < 16 then stretch X QW QZ SC r n ⟨j, h⟩ else 0) :=
    accK_eq_sum_range X QW QZ SC r n 15
  rw [h, ← Fin.sum_univ_eq_sum_range
    (fun j => if h : j < 16 then stretch X QW QZ SC r n ⟨j, h⟩ else 0) 16]
  exact Finset.sum_congr rfl fun kt _ => dif_pos kt.isLt

/-! ### Sixteen stretches of 256 rows are the 4096 rows -/

/-- `(kt, kk) ↦ 256 · kt + kk`, a bijection of `Fin 16 × Fin 256` with `Fin 4096`. -/
def stretchEquiv : Fin 16 × Fin 256 ≃ Fin 4096 := finProdFinEquiv

theorem stretchEquiv_apply (p : Fin 16 × Fin 256) : stretchEquiv p = Kidx p.1 p.2 := by
  have h : (stretchEquiv p).val = p.2.val + 256 * p.1.val := rfl
  exact Fin.ext (by rw [h]; simp only [Kidx]; omega)

/-- A sum over the sixteen stretches and the 256 rows of each is the sum over all contraction rows. -/
theorem sum_Kidx (g : Fin 4096 → EReal) :
    ∑ kt : Fin 16, ∑ kk : Fin 256, g (Kidx kt kk) = ∑ K : Fin 4096, g K := by
  rw [← Fintype.sum_prod_type' (fun kt kk => g (Kidx kt kk))]
  exact Fintype.sum_equiv stretchEquiv _ _ fun p => by rw [stretchEquiv_apply]

/-! ### The two results agree -/

/-- One output entry before the bias: the kernel's last running sum is the reference's whole contraction. -/
theorem accK_last_eq_sum_wR (X : AX) (QW : AQW) (QZ : AQZ) (SC : ASC)
    (hSC : ∀ i, ∃ r : ℝ, SC i = (r : EReal)) (r : Fin 2048) (n : Fin 11008) :
    accK X QW QZ SC r n 15 = ∑ K : Fin 4096, X (ix2 r K) * wR QW QZ SC K n := by
  rw [accK_last]
  simp only [stretch]
  rw [sum_Kidx (fun K => X (ix2 r K) * wK QW QZ SC K n)]
  exact Finset.sum_congr rfl fun K _ => by rw [wK_eq_wR QW QZ SC hSC]

/-- The kernel's result, sixteen stretches of `q · s − z · s`, is the reference's whole contraction of
`(q − z) · s`, when every scale is a real number. -/
theorem outK_eq_outR (X : AX) (QW : AQW) (QZ : AQZ) (SC : ASC) (B : AB)
    (hSC : ∀ i, ∃ r : ℝ, SC i = (r : EReal)) : outK X QW QZ SC B = outR X QW QZ SC B :=
  funext fun i =>
    congrArg (fun t => t + B (ix1 (i 1))) (accK_last_eq_sum_wR X QW QZ SC hSC (i 0) (i 1))

/-! ### The precondition makes every scale a real number -/

/-- The single-precision pattern `0x7F800000` denotes `+∞`. -/
theorem ofBits_inf_f32 : Ideal.ofBits .f32 0x7F800000#32 = (⊤ : EReal) := by simp [Ideal.ofBits, Ideal.ieee]

/-- An extended real whose absolute value `max x (−x)` lies below `+∞` is a real number: at `⊥` and at `⊤` the
absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The predicate is the conjunction of three "all entries have absolute value below `+∞`", over the activations,
the scales and the bias. Its middle conjunct, read at one index, says `|s| < +∞` for that scale. -/
theorem sc_real_of_pre [Cert.Pre_finite_inputs.Facts] (x0 : (⟨2, ![2048, 4096]⟩ : Shape).Idx → EReal) (x1 : AQW)
    (x2 : AQZ) (x3 : ASC) (x4 : AB)
    (h : Cert.Pre_finite_inputs.fn (F := Ideal) x0 x1 x2 x3 x4 = fun _ => 1#1) :
    ∀ i, ∃ r : ℝ, x3 i = (r : EReal) := by
  intro i
  have h0 := congrFun h ValueIdx.ix0
  dsimp only [Cert.Pre_finite_inputs.fn] at h0
  -- the outer conjunction is (activations ∧ scales) ∧ bias
  have h1 := (IntOp.andi_eq_one.1 h0).1
  have h7 := (IntOp.andi_eq_one.1 h1).2
  -- the predicate's result has a single index, so every entry of the compared array is 1
  haveI : Subsingleton Cert.Pre_finite_inputs.S_.Idx := ⟨fun a b => funext fun d => d.elim0⟩
  have hi := Host.reduce_andi_all _ _ _ _ _ h7 i
  -- at index `i` the comparison is `max s (−s) < +∞`
  have hi' : Ideal.cmp .olt (max (x3 i) (-(x3 i))) (Ideal.ofBits .f32 0x7F800000#32) = 1#1 := hi
  rw [ofBits_inf_f32] at hi'
  simp only [Ideal.cmp] at hi'
  refine real_of_abs_lt_top (x3 i) ?_
  by_contra hn
  rw [decide_eq_false hn] at hi'
  exact absurd hi' (by decide)

end Cert.QLin

end
-- ==== Proof.lean ====
/-
  A packed-int4 linear layer, `x · W + b` with `W = (q − z) · s` dequantised per group of 128 contraction rows, computed
  by a tiled kernel against the plain formula.

  Over the extended reals the two programs agree. The kernel folds `z · s` beforehand and forms `q · s − z · s`; that is
  `(q − z) · s` because the fields `q`, `z` are integers and the scales are finite (the one use of the precondition;
  `x` and the bias may be anything: the rest is regrouping a finite sum, which needs no finiteness). The kernel takes the
  4096-row contraction in sixteen stretches of 256, accumulated in a scratch buffer from zero, and adds the bias at
  the last stretch; the changes of float format on the way are the identity. Its last column-block overhangs the
  11008 columns: the clipped fetches leave words nothing names past the arrays' end, the body's arithmetic keeps each
  column to itself, and the clipped write-back drops them — so the value is stated, and carried from point to point,
  on the columns inside.

  The three frames: the reference's from its run; the kernel's, at both instances, from the pipeline's launch with
  the body run symbolically in its three control cases (first, middle and last stretch). The idealization rewrote
  nothing, so there is nothing to preserve beyond the text itself.
-/
import proofs.«400274_j61847529063064_3_alg».proof.Defs
import proofs.«400274_j61847529063064_3_alg».proof.Proof.Gen.Kernel
import proofs.«400274_j61847529063064_3_alg».proof.Proof.Gen.KernelIdeal
import proofs.«400274_j61847529063064_3_alg».proof.Proof.Gen.ReferenceIdeal
import proofs.«400274_j61847529063064_3_alg».proof.Proof.Gen.Pre_finite_inputs
import proofs.«400274_j61847529063064_3_alg».proof.Proof.KFrame
import proofs.«400274_j61847529063064_3_alg».proof.Proof.KIFrame
import proofs.«400274_j61847529063064_3_alg».proof.Proof.KIExact
import proofs.«400274_j61847529063064_3_alg».proof.Proof.RefSide
import proofs.«400274_j61847529063064_3_alg».proof.Proof.Law
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := Cert.QLin.Ref.frame

/-- Both programs end at one result: the kernel's `outK` of its arguments, the reference's `outR` of the same
    arguments, equal because the scales are finite. -/
theorem algebraic : Cert.algebraic_KernelIdeal_ReferenceIdeal := by
  intro m ρ m' ρ' hpre hagree
  refine ⟨_, Cert.KernelIdeal.Exact.value_run m ρ, ?_⟩
  refine (θ_run Cert.ReferenceIdeal.defs _ _).mono (fun _ h c => ⟨(h c).1.trans ?_, (h c).2⟩) (Cert.QLin.Ref.run m' ρ')
  rw [(hagree c).1, (hagree c).2.1, (hagree c).2.2.1, (hagree c).2.2.2.1, (hagree c).2.2.2.2]
  exact (Cert.QLin.outK_eq_outR _ _ _ _ _ (Cert.QLin.sc_real_of_pre _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
